-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S11008x4096 : Shape := ⟨2, ![11008, 4096]⟩
abbrev S11008x32 : Shape := ⟨2, ![11008, 32]⟩
abbrev S4096x11008 : Shape := ⟨2, ![4096, 11008]⟩
abbrev S4096x86 : Shape := ⟨2, ![4096, 86]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S4096x86 : S_.BroadcastsInDim S4096x86 (![] : Fin 0 → Fin S4096x86.rank)
  reducesTo_S4096x86_S_d0_1 : S4096x86.ReducesTo [0, 1] S_

variable [Facts]

def fn_part1 {F : FTy → Type} [FloatOps F] (main_v13 : IVec S_ 1) (main_v16 : IVec S4096x86 1) : IVec S_ 1 :=
  let main_c_5 : IVec S_ 1 := constantI S_ 1 1#1
  let main_v17 : IVec S_ 1 := (fun x v => Host.reduce IntOp.andi x v reducesTo_S4096x86_S_d0_1 h_S_) main_v16 main_c_5
  let main_v18 : IVec S_ 1 := andi main_v13 main_v17
  main_v18

def fn {F : FTy → Type} [FloatOps F] (main_arg0 : FVec F S64x4096 .f32) (main_arg1 : IVec S11008x4096 32) (main_arg2 : FVec F S11008x32 .f32) (main_arg3 : IVec S11008x32 32) (main_arg4 : IVec S11008x4096 32) (main_arg5 : FVec F S11008x32 .f32) (main_arg6 : IVec S11008x32 32) (main_arg7 : IVec S4096x11008 32) (main_arg8 : FVec F S4096x86 .f32) (main_arg9 : IVec S4096x86 32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg5
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S4096x86 .f32 := Host.absf main_arg8
  let main_cst_4 : FVec F S_ .f32 := constant S_ .f32 0x7F800000#32
  let main_v15 : FVec F S4096x86 .f32 := broadcastInDim S4096x86 ![] bcast_S_S4096x86 main_cst_4
  let main_v16 : IVec S4096x86 1 := cmpf .olt main_v14 main_v15
  fn_part1 (F := F) main_v13 main_v16
-- ==== Kernel.lean ====
abbrev S64x4096 : Shape := ⟨2, ![64, 4096]⟩
abbrev S11008x4096 : Shape := ⟨2, ![11008, 4096]⟩
abbrev S11008x32 : Shape := ⟨2, ![11008, 32]⟩
abbrev S4096x11008 : Shape := ⟨2, ![4096, 11008]⟩
abbrev S4096x86 : Shape := ⟨2, ![4096, 86]⟩
abbrev S64x11008 : Shape := ⟨2, ![64, 11008]⟩
abbrev S256x4096 : Shape := ⟨2, ![256, 4096]⟩
abbrev S256x32 : Shape := ⟨2, ![256, 32]⟩
abbrev S64x256 : Shape := ⟨2, ![64, 256]⟩
abbrev S256x32x128 : Shape := ⟨3, ![256, 32, 128]⟩
abbrev S256x32x1 : Shape := ⟨3, ![256, 32, 1]⟩
abbrev S128x11008 : Shape := ⟨2, ![128, 11008]⟩
abbrev S128x86 : Shape := ⟨2, ![128, 86]⟩
abbrev S64x128 : Shape := ⟨2, ![64, 128]⟩
abbrev S128x86x128 : Shape := ⟨3, ![128, 86, 128]⟩
abbrev S128x86x1 : Shape := ⟨3, ![128, 86, 1]⟩

abbrev nBuf : Space → Nat
  | .hbm => 13
  | .vmem => 24
  | .smem => 0
  | _ => 0

abbrev bufTy : (tb : Table) → Fin (tcTables nBuf tb) → BufTy
  | .hbm, ⟨0, _⟩ => ⟨S64x4096, .f32⟩
  | .hbm, ⟨1, _⟩ => ⟨S11008x4096, .i32⟩
  | .hbm, ⟨2, _⟩ => ⟨S11008x32, .f32⟩
  | .hbm, ⟨3, _⟩ => ⟨S11008x32, .i32⟩
  | .hbm, ⟨4, _⟩ => ⟨S11008x4096, .i32⟩
  | .hbm, ⟨5, _⟩ => ⟨S11008x32, .f32⟩
  | .hbm, ⟨6, _⟩ => ⟨S11008x32, .i32⟩
  | .hbm, ⟨7, _⟩ => ⟨S4096x11008, .i32⟩
  | .hbm, ⟨8, _⟩ => ⟨S4096x86, .f32⟩
  | .hbm, ⟨9, _⟩ => ⟨S4096x86, .i32⟩
  | .hbm, ⟨10, _⟩ => ⟨S64x4096, .bf16⟩
  | .hbm, ⟨11, _⟩ => ⟨S64x11008, .bf16⟩
  | .hbm, ⟨12, _⟩ => ⟨S64x4096, .f32⟩
  | .local _ .vmem, ⟨0, _⟩ => ⟨S64x4096, .bf16⟩
  | .local _ .vmem, ⟨1, _⟩ => ⟨S256x4096, .i32⟩
  | .local _ .vmem, ⟨2, _⟩ => ⟨S256x4096, .i32⟩
  | .local _ .vmem, ⟨3, _⟩ => ⟨S256x32, .f32⟩
  | .local _ .vmem, ⟨4, _⟩ => ⟨S256x32, .f32⟩
  | .local _ .vmem, ⟨5, _⟩ => ⟨S256x32, .i32⟩
  | .local _ .vmem, ⟨6, _⟩ => ⟨S256x32, .i32⟩
  | .local _ .vmem, ⟨7, _⟩ => ⟨S256x4096, .i32⟩
  | .local _ .vmem, ⟨8, _⟩ => ⟨S256x4096, .i32⟩
  | .local _ .vmem, ⟨9, _⟩ => ⟨S256x32, .f32⟩
  | .local _ .vmem, ⟨10, _⟩ => ⟨S256x32, .f32⟩
  | .local _ .vmem, ⟨11, _⟩ => ⟨S256x32, .i32⟩
  | .local _ .vmem, ⟨12, _⟩ => ⟨S256x32, .i32⟩
  | .local _ .vmem, ⟨13, _⟩ => ⟨S64x256, .bf16⟩
  | .local _ .vmem, ⟨14, _⟩ => ⟨S64x256, .bf16⟩
  | .local _ .vmem, ⟨15, _⟩ => ⟨S128x11008, .i32⟩
  | .local _ .vmem, ⟨16, _⟩ => ⟨S128x11008, .i32⟩
  | .local _ .vmem, ⟨17, _⟩ => ⟨S128x86, .f32⟩
  | .local _ .vmem, ⟨18, _⟩ => ⟨S128x86, .f32⟩
  | .local _ .vmem, ⟨19, _⟩ => ⟨S128x86, .i32⟩
  | .local _ .vmem, ⟨20, _⟩ => ⟨S128x86, .i32⟩
  | .local _ .vmem, ⟨21, _⟩ => ⟨S64x11008, .bf16⟩
  | .local _ .vmem, ⟨22, _⟩ => ⟨S64x128, .f32⟩
  | .local _ .vmem, ⟨23, _⟩ => ⟨S64x128, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x11008 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x86 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x86 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x11008 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x256_S64x256_0_0 : ∀ a, (![0, 0] : Fin 2 → Nat) a + S64x256.size a ≤ S64x256.size a
  h_S64x256 : 0 < S64x256.numel
  packedbf16_S64x256_S64x256_0_0 : (Rect.unit (s := S64x256) ![0, 0] S64x256.size inb_S64x256_S64x256_0_0).PackedRows (EltTy.packing .bf16)
  inb_S128x11008_S128x11008_0_0 : ∀ a, (![0, 0] : Fin 2 → Nat) a + S128x11008.size a ≤ S128x11008.size a
  h_S128x11008 : 0 < S128x11008.numel
  shapeCasts_S128x11008_S128x86x128 : S128x11008.ShapeCasts S128x86x128
  inb_S128x86_S128x86_0_0 : ∀ a, (![0, 0] : Fin 2 → Nat) a + S128x86.size a ≤ S128x86.size a
  h_S128x86 : 0 < S128x86.numel
  shapeCasts_S128x86_S128x86x1 : S128x86.ShapeCasts S128x86x1
  broadcasts_S128x86x1_S128x86x128 : S128x86x1.Broadcasts S128x86x128
  shapeCasts_S128x86x128_S128x11008 : S128x86x128.ShapeCasts S128x11008
  inb_S64x11008_S64x11008_0_0 : ∀ a, (![0, 0] : Fin 2 → Nat) a + S64x11008.size a ≤ S64x11008.size a
  h_S64x11008 : 0 < S64x11008.numel
  shapeCasts_S64x11008_S64x11008 : S64x11008.ShapeCasts S64x11008
  inb_S64x128_S64x128_0_0 : ∀ a, (![0, 0] : Fin 2 → Nat) a + S64x128.size a ≤ S64x128.size a
  h_S64x128 : 0 < S64x128.numel
  dot_S64x4096_S256x4096_S64x256_1_1_0_0_n_n_wf : DotDims.WF S64x4096 S256x4096 S64x256 [1] [1] [0] [0] [] []
  dot_S64x11008_S128x11008_S64x128_1_1_0_0_n_n_wf : DotDims.WF S64x11008 S128x11008 S64x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .i32 = 32 ∨ (Rect.block (s := S11008x32) S256x32.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S11008x4096.size a
  hwx0_4 : ∀ i : grid0.Coords, EltTy.bits .i32 = 32 ∨ (Rect.block (s := S11008x4096) S256x4096.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S11008x32.size a
  hwx0_5 : ∀ i : grid0.Coords, EltTy.bits .f32 = 32 ∨ (Rect.block (s := S11008x32) S256x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S11008x32.size a
  hwx0_6 : ∀ i : grid0.Coords, EltTy.bits .i32 = 32 ∨ (Rect.block (s := S11008x32) S256x32.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x11008.size a
  hwx0_7 : ∀ i : grid0.Coords, EltTy.bits .bf16 = 32 ∨ (Rect.block (s := S64x11008) S64x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x11008.size a ≤ S4096x11008.size a
  hwx1_0 : ∀ i : grid1.Coords, EltTy.bits .i32 = 32 ∨ (Rect.block (s := S4096x11008) S128x11008.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x86.size a ≤ S4096x86.size a
  hwx1_1 : ∀ i : grid1.Coords, EltTy.bits .f32 = 32 ∨ (Rect.block (s := S4096x86) S128x86.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x86.size a ≤ S4096x86.size a
  hwx1_2 : ∀ i : grid1.Coords, EltTy.bits .i32 = 32 ∨ (Rect.block (s := S4096x86) S128x86.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x11008.size a ≤ S64x11008.size a
  hwx1_3 : ∀ i : grid1.Coords, EltTy.bits .bf16 = 32 ∨ (Rect.block (s := S64x11008) S64x11008.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x4096.size a
  hwx1_4 : ∀ i : grid1.Coords, EltTy.bits .f32 = 32 ∨ (Rect.block (s := S64x4096) S64x128.size (cc1_transform_4 i) (hinb1_4 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf
def dot_S64x11008_S128x11008_S64x128_1_1_0_0_n_n : DotDims S64x11008 S128x11008 S64x128 where
  lhsContracting := [1]
  rhsContracting := [1]
  lhsNonContracting := [0]
  rhsNonContracting := [0]
  lhsBatch := []
  rhsBatch := []
  wf := dot_S64x11008_S128x11008_S64x128_1_1_0_0_n_n_wf

abbrev win0_0 : Pipeline.Window sig grid0 :=
  Pipeline.Window.ofSpec (Memref.whole main_v0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S64x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg7) S128x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x86.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x86.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S64x11008.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S64x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x4096 : Shape := ⟨2, ![64, 4096]⟩
abbrev S11008x4096 : Shape := ⟨2, ![11008, 4096]⟩
abbrev S11008x32 : Shape := ⟨2, ![11008, 32]⟩
abbrev S4096x11008 : Shape := ⟨2, ![4096, 11008]⟩
abbrev S4096x86 : Shape := ⟨2, ![4096, 86]⟩
abbrev S11008x32x128 : Shape := ⟨3, ![11008, 32, 128]⟩
abbrev S11008x32x1 : Shape := ⟨3, ![11008, 32, 1]⟩
abbrev S4096x86x128 : Shape := ⟨3, ![4096, 86, 128]⟩
abbrev S4096x86x1 : Shape := ⟨3, ![4096, 86, 1]⟩
abbrev S64x11008 : Shape := ⟨2, ![64, 11008]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S11008x4096, .i32⟩
  | .hbm, ⟨2, _⟩ => ⟨S11008x32, .f32⟩
  | .hbm, ⟨3, _⟩ => ⟨S11008x32, .i32⟩
  | .hbm, ⟨4, _⟩ => ⟨S11008x4096, .i32⟩
  | .hbm, ⟨5, _⟩ => ⟨S11008x32, .f32⟩
  | .hbm, ⟨6, _⟩ => ⟨S11008x32, .i32⟩
  | .hbm, ⟨7, _⟩ => ⟨S4096x11008, .i32⟩
  | .hbm, ⟨8, _⟩ => ⟨S4096x86, .f32⟩
  | .hbm, ⟨9, _⟩ => ⟨S4096x86, .i32⟩
  | .hbm, ⟨10, _⟩ => ⟨S11008x32x128, .i32⟩
  | .hbm, ⟨11, _⟩ => ⟨S11008x32x128, .f32⟩
  | .hbm, ⟨12, _⟩ => ⟨S11008x32x1, .i32⟩
  | .hbm, ⟨13, _⟩ => ⟨S11008x32x1, .f32⟩
  | .hbm, ⟨14, _⟩ => ⟨S11008x32x128, .f32⟩
  | .hbm, ⟨15, _⟩ => ⟨S11008x32x128, .f32⟩
  | .hbm, ⟨16, _⟩ => ⟨S11008x32x1, .f32⟩
  | .hbm, ⟨17, _⟩ => ⟨S11008x32x128, .f32⟩
  | .hbm, ⟨18, _⟩ => ⟨S11008x32x128, .f32⟩
  | .hbm, ⟨19, _⟩ => ⟨S11008x4096, .f32⟩
  | .hbm, ⟨20, _⟩ => ⟨S11008x32x128, .i32⟩
  | .hbm, ⟨21, _⟩ => ⟨S11008x32x128, .f32⟩
  | .hbm, ⟨22, _⟩ => ⟨S11008x32x1, .i32⟩
  | .hbm, ⟨23, _⟩ => ⟨S11008x32x1, .f32⟩
  | .hbm, ⟨24, _⟩ => ⟨S11008x32x128, .f32⟩
  | .hbm, ⟨25, _⟩ => ⟨S11008x32x128, .f32⟩
  | .hbm, ⟨26, _⟩ => ⟨S11008x32x1, .f32⟩
  | .hbm, ⟨27, _⟩ => ⟨S11008x32x128, .f32⟩
  | .hbm, ⟨28, _⟩ => ⟨S11008x32x128, .f32⟩
  | .hbm, ⟨29, _⟩ => ⟨S11008x4096, .f32⟩
  | .hbm, ⟨30, _⟩ => ⟨S4096x86x128, .i32⟩
  | .hbm, ⟨31, _⟩ => ⟨S4096x86x128, .f32⟩
  | .hbm, ⟨32, _⟩ => ⟨S4096x86x1, .i32⟩
  | .hbm, ⟨33, _⟩ => ⟨S4096x86x1, .f32⟩
  | .hbm, ⟨34, _⟩ => ⟨S4096x86x128, .f32⟩
  | .hbm, ⟨35, _⟩ => ⟨S4096x86x128, .f32⟩
  | .hbm, ⟨36, _⟩ => ⟨S4096x86x1, .f32⟩
  | .hbm, ⟨37, _⟩ => ⟨S4096x86x128, .f32⟩
  | .hbm, ⟨38, _⟩ => ⟨S4096x86x128, .f32⟩
  | .hbm, ⟨39, _⟩ => ⟨S4096x11008, .f32⟩
  | .hbm, ⟨40, _⟩ => ⟨S4096x11008, .f32⟩
  | .hbm, ⟨41, _⟩ => ⟨S64x11008, .f32⟩
  | .hbm, ⟨42, _⟩ => ⟨S4096x11008, .f32⟩
  | .hbm, ⟨43, _⟩ => ⟨S64x11008, .f32⟩
  | .hbm, ⟨44, _⟩ => ⟨S64x11008, .f32⟩
  | .hbm, ⟨45, _⟩ => ⟨S64x11008, .f32⟩
  | .hbm, ⟨46, _⟩ => ⟨S_, .f32⟩
  | .hbm, ⟨47, _⟩ => ⟨S64x11008, .f32⟩
  | .hbm, ⟨48, _⟩ => ⟨S64x11008, .f32⟩
  | .hbm, ⟨49, _⟩ => ⟨S_, .f32⟩
  | .hbm, ⟨50, _⟩ => ⟨S64x11008, .f32⟩
  | .hbm, ⟨51, _⟩ => ⟨S64x11008, .f32⟩
  | .hbm, ⟨52, _⟩ => ⟨S64x11008, .f32⟩
  | .hbm, ⟨53, _⟩ => ⟨S64x11008, .f32⟩
  | .hbm, ⟨54, _⟩ => ⟨S11008x4096, .f32⟩
  | .hbm, ⟨55, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  shapeCasts_S4096x11008_S4096x86x128 : S4096x11008.ShapeCasts S4096x86x128
  bcast_S4096x86_S4096x86x1_0_1 : S4096x86.BroadcastsInDim S4096x86x1 (![0, 1] : Fin 2 → Fin S4096x86x1.rank)
  bcast_S4096x86x1_S4096x86x128_0_1_2 : S4096x86x1.BroadcastsInDim S4096x86x128 (![0, 1, 2] : Fin 3 → Fin S4096x86x128.rank)
  shapeCasts_S4096x86x128_S4096x11008 : S4096x86x128.ShapeCasts S4096x11008
  transposes_S11008x4096_S4096x11008_1_0 : S11008x4096.Transposes [1, 0] S4096x11008
  bcast_S_S64x11008 : S_.BroadcastsInDim S64x11008 (![] : Fin 0 → Fin S64x11008.rank)
  transposes_S4096x11008_S11008x4096_1_0 : S4096x11008.Transposes [1, 0] S11008x4096
  dot_S64x4096_S4096x11008_S64x11008_1_0_0_1_n_n_wf : DotDims.WF S64x4096 S4096x11008 S64x11008 [1] [0] [0] [1] [] []
  dot_S64x11008_S11008x4096_S64x4096_1_0_0_1_n_n_wf : DotDims.WF S64x11008 S11008x4096 S64x4096 [1] [0] [0] [1] [] []

variable [Facts₀]

def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf
def dot_S64x11008_S11008x4096_S64x4096_1_0_0_1_n_n : DotDims S64x11008 S11008x4096 S64x4096 where
  lhsContracting := [1]
  rhsContracting := [0]
  lhsNonContracting := [0]
  rhsNonContracting := [1]
  lhsBatch := []
  rhsBatch := []
  wf := dot_S64x11008_S11008x4096_S64x4096_1_0_0_1_n_n_wf

class Facts : Prop extends Facts₀ where

variable [Facts]
-- ==== Proof.Spec.lean ====
/-
  The feed-forward block both programs compute, written once over the extended reals.

  A quantized weight matrix is stored as integer words q[r, k] with one scale s[r, g] and one zero point zp[r, g] per
  group g = k / 128 of 128 consecutive columns; its real entry is (q[r, k] − zp[r, k / 128]) · s[r, k / 128].
  With W1, W3 : [I, H] and W2 : [H, I] dequantized so (I = 11008, H = 4096) and x : [T, H] (T = 64),

      x1[t, i] = Σ_k x[t, k] · W1[i, k],   x3[t, i] = Σ_k x[t, k] · W3[i, k],
      g[t, i]  = (x1[t, i] · logistic(x1[t, i])) · x3[t, i],
      out[t, h] = Σ_i g[t, i] · W2[h, i].

  The row count of a weight matrix is a parameter, so that the same definitions speak of the whole matrix and of the
  block of rows one grid point of a kernel holds.
-/
import Idealize.ShloMosaic.PureOps.Ideal
import Idealize.ShloMosaic.Lib.ValueIdx

noncomputable section

open scoped BigOperators

namespace Cert.Ffn

open Idealize.ShloMosaic Idealize.ShloMosaic.ValueIdx

/-- A 32-bit integer word as the real number it spells, read signed. -/
abbrev ofInt (b : BitVec 32) : EReal := ((b.toInt : ℝ) : EReal)

/-- The group of 128 consecutive columns a column of the hidden axis (H = 4096 = 32 · 128) lies in. -/
def grpH (k : Fin 4096) : Fin 32 := ⟨k.val / 128, by have := k.isLt; omega⟩

/-- The group of 128 consecutive columns a column of the intermediate axis (I = 11008 = 86 · 128) lies in. -/
def grpI (k : Fin 11008) : Fin 86 := ⟨k.val / 128, by have := k.isLt; omega⟩

/-- Entry (r, k) of a dequantized matrix with 4096 columns: (q − zp) · s, the zero point and scale those of k's group. -/
def wUp {R : Nat} (q : IVec ⟨2, ![R, 4096]⟩ 32) (s : (⟨2, ![R, 32]⟩ : Shape).Idx → EReal) (zp : IVec ⟨2, ![R, 32]⟩ 32)
    (r : Fin R) (k : Fin 4096) : EReal :=
  (ofInt (q (ix2 r k)) - ofInt (zp (ix2 r (grpH k)))) * s (ix2 r (grpH k))

/-- Entry (r, k) of a dequantized matrix with 11008 columns. -/
def wDown {R : Nat} (q : IVec ⟨2, ![R, 11008]⟩ 32) (s : (⟨2, ![R, 86]⟩ : Shape).Idx → EReal) (zp : IVec ⟨2, ![R, 86]⟩ 32)
    (r : Fin R) (k : Fin 11008) : EReal :=
  (ofInt (q (ix2 r k)) - ofInt (zp (ix2 r (grpI k)))) * s (ix2 r (grpI k))

/-- Row t of x against row r of a dequantized [R, 4096] matrix: Σ_k x[t, k] · W[r, k]. -/
def proj {R : Nat} (x : (⟨2, ![64, 4096]⟩ : Shape).Idx → EReal) (q : IVec ⟨2, ![R, 4096]⟩ 32)
    (s : (⟨2, ![R, 32]⟩ : Shape).Idx → EReal) (zp : IVec ⟨2, ![R, 32]⟩ 32) (t : Fin 64) (r : Fin R) : EReal :=
  ∑ k : Fin 4096, x (ix2 t k) * wUp q s zp r k

/-- The gated activation: (x1 · logistic x1) · x3 at (t, r), x1 and x3 the two projections. -/
def gate {R : Nat} (x : (⟨2, ![64, 4096]⟩ : Shape).Idx → EReal)
    (q1 : IVec ⟨2, ![R, 4096]⟩ 32) (s1 : (⟨2, ![R, 32]⟩ : Shape).Idx → EReal) (zp1 : IVec ⟨2, ![R, 32]⟩ 32)
    (q3 : IVec ⟨2, ![R, 4096]⟩ 32) (s3 : (⟨2, ![R, 32]⟩ : Shape).Idx → EReal) (zp3 : IVec ⟨2, ![R, 32]⟩ 32)
    (t : Fin 64) (r : Fin R) : EReal :=
  (proj x q1 s1 zp1 t r * Ideal.logistic (proj x q1 s1 zp1 t r)) * proj x q3 s3 zp3 t r

/-- Row t of the gated activation g : [64, 11008] against row r of a dequantized [R, 11008] matrix. -/
def down {R : Nat} (g : (⟨2, ![64, 11008]⟩ : Shape).Idx → EReal) (q : IVec ⟨2, ![R, 11008]⟩ 32)
    (s : (⟨2, ![R, 86]⟩ : Shape).Idx → EReal) (zp : IVec ⟨2, ![R, 86]⟩ 32) (t : Fin 64) (r : Fin R) : EReal :=
  ∑ i : Fin 11008, g (ix2 t i) * wDown q s zp r i

/-- The gated activation as a whole [64, 11008] array of the seven arrays it depends on. -/
def gateArr (x : (⟨2, ![64, 4096]⟩ : Shape).Idx → EReal)
    (q1 : IVec ⟨2, ![11008, 4096]⟩ 32) (s1 : (⟨2, ![11008, 32]⟩ : Shape).Idx → EReal) (zp1 : IVec ⟨2, ![11008, 32]⟩ 32)
    (q3 : IVec ⟨2, ![11008, 4096]⟩ 32) (s3 : (⟨2, ![11008, 32]⟩ : Shape).Idx → EReal) (zp3 : IVec ⟨2, ![11008, 32]⟩ 32) :
    (⟨2, ![64, 11008]⟩ : Shape).Idx → EReal :=
  fun j => gate x q1 s1 zp1 q3 s3 zp3 ⟨(j 0).val, idx2_lt0 j⟩ ⟨(j 1).val, idx2_lt1 j⟩

theorem gateArr_ix2 (x : (⟨2, ![64, 4096]⟩ : Shape).Idx → EReal)
    (q1 : IVec ⟨2, ![11008, 4096]⟩ 32) (s1 : (⟨2, ![11008, 32]⟩ : Shape).Idx → EReal) (zp1 : IVec ⟨2, ![11008, 32]⟩ 32)
    (q3 : IVec ⟨2, ![11008, 4096]⟩ 32) (s3 : (⟨2, ![11008, 32]⟩ : Shape).Idx → EReal) (zp3 : IVec ⟨2, ![11008, 32]⟩ 32)
    (t : Fin 64) (i : Fin 11008) :
    gateArr x q1 s1 zp1 q3 s3 zp3 (ix2 t i) = gate x q1 s1 zp1 q3 s3 zp3 t i := rfl

/-- The block's result as a whole [64, 4096] array of the ten argument arrays. -/
def outArr (x : (⟨2, ![64, 4096]⟩ : Shape).Idx → EReal)
    (q1 : IVec ⟨2, ![11008, 4096]⟩ 32) (s1 : (⟨2, ![11008, 32]⟩ : Shape).Idx → EReal) (zp1 : IVec ⟨2, ![11008, 32]⟩ 32)
    (q3 : IVec ⟨2, ![11008, 4096]⟩ 32) (s3 : (⟨2, ![11008, 32]⟩ : Shape).Idx → EReal) (zp3 : IVec ⟨2, ![11008, 32]⟩ 32)
    (q2 : IVec ⟨2, ![4096, 11008]⟩ 32) (s2 : (⟨2, ![4096, 86]⟩ : Shape).Idx → EReal) (zp2 : IVec ⟨2, ![4096, 86]⟩ 32) :
    (⟨2, ![64, 4096]⟩ : Shape).Idx → EReal :=
  fun j => down (gateArr x q1 s1 zp1 q3 s3 zp3) q2 s2 zp2 ⟨(j 0).val, idx2_lt0 j⟩ ⟨(j 1).val, idx2_lt1 j⟩

theorem outArr_ix2 (x : (⟨2, ![64, 4096]⟩ : Shape).Idx → EReal)
    (q1 : IVec ⟨2, ![11008, 4096]⟩ 32) (s1 : (⟨2, ![11008, 32]⟩ : Shape).Idx → EReal) (zp1 : IVec ⟨2, ![11008, 32]⟩ 32)
    (q3 : IVec ⟨2, ![11008, 4096]⟩ 32) (s3 : (⟨2, ![11008, 32]⟩ : Shape).Idx → EReal) (zp3 : IVec ⟨2, ![11008, 32]⟩ 32)
    (q2 : IVec ⟨2, ![4096, 11008]⟩ 32) (s2 : (⟨2, ![4096, 86]⟩ : Shape).Idx → EReal) (zp2 : IVec ⟨2, ![4096, 86]⟩ 32)
    (t : Fin 64) (h : Fin 4096) :
    outArr x q1 s1 zp1 q3 s3 zp3 q2 s2 zp2 (ix2 t h) = down (gateArr x q1 s1 zp1 q3 s3 zp3) q2 s2 zp2 t h := rfl

end Cert.Ffn

end
-- ==== Proof.SpecBlocks.lean ====
/-
  The specification is insensitive to how a weight matrix is cut into blocks of rows: an entry of a block of rows is
  the entry of the whole matrix at the row the block's row stands for. Stated here as congruences: two dequantized
  entries (two projections, two gated activations, two down-projections) agree as soon as the words, scales and
  zero points they read agree, whatever the row counts of the two matrices.
-/
import proofs.«118565_j43396349559335_1_alg».proof.Proof.Spec

noncomputable section

open scoped BigOperators

namespace Cert.Ffn

open Idealize.ShloMosaic Idealize.ShloMosaic.ValueIdx

theorem wUp_congr {R R' : Nat}
    (q : IVec ⟨2, ![R, 4096]⟩ 32) (s : (⟨2, ![R, 32]⟩ : Shape).Idx → EReal) (zp : IVec ⟨2, ![R, 32]⟩ 32)
    (q' : IVec ⟨2, ![R', 4096]⟩ 32) (s' : (⟨2, ![R', 32]⟩ : Shape).Idx → EReal) (zp' : IVec ⟨2, ![R', 32]⟩ 32)
    (r : Fin R) (r' : Fin R') (k : Fin 4096)
    (hq : q (ix2 r k) = q' (ix2 r' k)) (hs : ∀ g : Fin 32, s (ix2 r g) = s' (ix2 r' g))
    (hzp : ∀ g : Fin 32, zp (ix2 r g) = zp' (ix2 r' g)) :
    wUp q s zp r k = wUp q' s' zp' r' k := by
  unfold wUp
  rw [hq, hs, hzp]

theorem wDown_congr {R R' : Nat}
    (q : IVec ⟨2, ![R, 11008]⟩ 32) (s : (⟨2, ![R, 86]⟩ : Shape).Idx → EReal) (zp : IVec ⟨2, ![R, 86]⟩ 32)
    (q' : IVec ⟨2, ![R', 11008]⟩ 32) (s' : (⟨2, ![R', 86]⟩ : Shape).Idx → EReal) (zp' : IVec ⟨2, ![R', 86]⟩ 32)
    (r : Fin R) (r' : Fin R') (k : Fin 11008)
    (hq : q (ix2 r k) = q' (ix2 r' k)) (hs : ∀ g : Fin 86, s (ix2 r g) = s' (ix2 r' g))
    (hzp : ∀ g : Fin 86, zp (ix2 r g) = zp' (ix2 r' g)) :
    wDown q s zp r k = wDown q' s' zp' r' k := by
  unfold wDown
  rw [hq, hs, hzp]

theorem proj_congr {R R' : Nat} (x x' : (⟨2, ![64, 4096]⟩ : Shape).Idx → EReal)
    (q : IVec ⟨2, ![R, 4096]⟩ 32) (s : (⟨2, ![R, 32]⟩ : Shape).Idx → EReal) (zp : IVec ⟨2, ![R, 32]⟩ 32)
    (q' : IVec ⟨2, ![R', 4096]⟩ 32) (s' : (⟨2, ![R', 32]⟩ : Shape).Idx → EReal) (zp' : IVec ⟨2, ![R', 32]⟩ 32)
    (t : Fin 64) (r : Fin R) (r' : Fin R')
    (hx : ∀ k : Fin 4096, x (ix2 t k) = x' (ix2 t k))
    (hq : ∀ k : Fin 4096, q (ix2 r k) = q' (ix2 r' k)) (hs : ∀ g : Fin 32, s (ix2 r g) = s' (ix2 r' g))
    (hzp : ∀ g : Fin 32, zp (ix2 r g) = zp' (ix2 r' g)) :
    proj x q s zp t r = proj x' q' s' zp' t r' := by
  unfold proj
  refine Finset.sum_congr rfl fun k _ => ?_
  rw [hx k, wUp_congr q s zp q' s' zp' r r' k (hq k) hs hzp]

theorem gate_congr {R R' : Nat} (x x' : (⟨2, ![64, 4096]⟩ : Shape).Idx → EReal)
    (q1 : IVec ⟨2, ![R, 4096]⟩ 32) (s1 : (⟨2, ![R, 32]⟩ : Shape).Idx → EReal) (zp1 : IVec ⟨2, ![R, 32]⟩ 32)
    (q3 : IVec ⟨2, ![R, 4096]⟩ 32) (s3 : (⟨2, ![R, 32]⟩ : Shape).Idx → EReal) (zp3 : IVec ⟨2, ![R, 32]⟩ 32)
    (q1' : IVec ⟨2, ![R', 4096]⟩ 32) (s1' : (⟨2, ![R', 32]⟩ : Shape).Idx → EReal) (zp1' : IVec ⟨2, ![R', 32]⟩ 32)
    (q3' : IVec ⟨2, ![R', 4096]⟩ 32) (s3' : (⟨2, ![R', 32]⟩ : Shape).Idx → EReal) (zp3' : IVec ⟨2, ![R', 32]⟩ 32)
    (t : Fin 64) (r : Fin R) (r' : Fin R')
    (hx : ∀ k : Fin 4096, x (ix2 t k) = x' (ix2 t k))
    (hq1 : ∀ k : Fin 4096, q1 (ix2 r k) = q1' (ix2 r' k)) (hs1 : ∀ g : Fin 32, s1 (ix2 r g) = s1' (ix2 r' g))
    (hzp1 : ∀ g : Fin 32, zp1 (ix2 r g) = zp1' (ix2 r' g))
    (hq3 : ∀ k : Fin 4096, q3 (ix2 r k) = q3' (ix2 r' k)) (hs3 : ∀ g : Fin 32, s3 (ix2 r g) = s3' (ix2 r' g))
    (hzp3 : ∀ g : Fin 32, zp3 (ix2 r g) = zp3' (ix2 r' g)) :
    gate x q1 s1 zp1 q3 s3 zp3 t r = gate x' q1' s1' zp1' q3' s3' zp3' t r' := by
  unfold gate
  rw [proj_congr x x' q1 s1 zp1 q1' s1' zp1' t r r' hx hq1 hs1 hzp1,
    proj_congr x x' q3 s3 zp3 q3' s3' zp3' t r r' hx hq3 hs3 hzp3]

theorem down_congr {R R' : Nat} (g g' : (⟨2, ![64, 11008]⟩ : Shape).Idx → EReal)
    (q : IVec ⟨2, ![R, 11008]⟩ 32) (s : (⟨2, ![R, 86]⟩ : Shape).Idx → EReal) (zp : IVec ⟨2, ![R, 86]⟩ 32)
    (q' : IVec ⟨2, ![R', 11008]⟩ 32) (s' : (⟨2, ![R', 86]⟩ : Shape).Idx → EReal) (zp' : IVec ⟨2, ![R', 86]⟩ 32)
    (t : Fin 64) (r : Fin R) (r' : Fin R')
    (hg : ∀ i : Fin 11008, g (ix2 t i) = g' (ix2 t i))
    (hq : ∀ i : Fin 11008, q (ix2 r i) = q' (ix2 r' i)) (hs : ∀ j : Fin 86, s (ix2 r j) = s' (ix2 r' j))
    (hzp : ∀ j : Fin 86, zp (ix2 r j) = zp' (ix2 r' j)) :
    down g q s zp t r = down g' q' s' zp' t r' := by
  unfold down
  refine Finset.sum_congr rfl fun i _ => ?_
  rw [hg i, wDown_congr q s zp q' s' zp' r r' i (hq i) hs hzp]

/-- The down-projection of a gated activation g as a whole [64, 4096] array. -/
def downArr (g : (⟨2, ![64, 11008]⟩ : Shape).Idx → EReal)
    (q2 : IVec ⟨2, ![4096, 11008]⟩ 32) (s2 : (⟨2, ![4096, 86]⟩ : Shape).Idx → EReal) (zp2 : IVec ⟨2, ![4096, 86]⟩ 32) :
    (⟨2, ![64, 4096]⟩ : Shape).Idx → EReal :=
  fun j => down g q2 s2 zp2 ⟨(j 0).val, idx2_lt0 j⟩ ⟨(j 1).val, idx2_lt1 j⟩

theorem downArr_ix2 (g : (⟨2, ![64, 11008]⟩ : Shape).Idx → EReal)
    (q2 : IVec ⟨2, ![4096, 11008]⟩ 32) (s2 : (⟨2, ![4096, 86]⟩ : Shape).Idx → EReal) (zp2 : IVec ⟨2, ![4096, 86]⟩ 32)
    (t : Fin 64) (h : Fin 4096) : downArr g q2 s2 zp2 (ix2 t h) = down g q2 s2 zp2 t h := rfl

/-- The block's result is the down-projection of the gated activation. -/
theorem outArr_eq (x : (⟨2, ![64, 4096]⟩ : Shape).Idx → EReal)
    (q1 : IVec ⟨2, ![11008, 4096]⟩ 32) (s1 : (⟨2, ![11008, 32]⟩ : Shape).Idx → EReal) (zp1 : IVec ⟨2, ![11008, 32]⟩ 32)
    (q3 : IVec ⟨2, ![11008, 4096]⟩ 32) (s3 : (⟨2, ![11008, 32]⟩ : Shape).Idx → EReal) (zp3 : IVec ⟨2, ![11008, 32]⟩ 32)
    (q2 : IVec ⟨2, ![4096, 11008]⟩ 32) (s2 : (⟨2, ![4096, 86]⟩ : Shape).Idx → EReal) (zp2 : IVec ⟨2, ![4096, 86]⟩ 32) :
    outArr x q1 s1 zp1 q3 s3 zp3 q2 s2 zp2 = downArr (gateArr x q1 s1 zp1 q3 s3 zp3) q2 s2 zp2 := rfl

end Cert.Ffn

end
-- ==== Proof.Body0.lean ====
/-
  What the gate program's body stores, read at an index (t, r) of its [64, 256] block, is the specification's gated
  activation of the blocks it loaded:

      (x1 · logistic x1) · x3,   x1 = Σ_k x[t, k] · W1[r, k],   x3 = Σ_k x[t, k] · W3[r, k],
      W[r, k] = (q[r, k] − zp[r, k / 128]) · s[r, k / 128].

  Three steps: the dequantized block at an index (a regrouping [256, 4096] → [256, 32, 128] and back, with the zero
  point and scale constant along the last axis); a product into a zero accumulator, contracting the second axis of
  both operands, as a sum over that axis; the pointwise operations at the index.
-/
import proofs.«118565_j43396349559335_1_alg».proof.Proof.Gen.KernelIdeal.Skeleton
import proofs.«118565_j43396349559335_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Ffn.Body0

open Cert.KernelIdeal Cert.KernelIdeal.Gen Idealize.ShloMosaic Idealize.ShloMosaic.ValueIdx

/-- Regrouping [256, 4096] → [256, 32, 128]: position (r, k / 128, k % 128) reads position (r, k). -/
theorem cast3_apply {α : Type} (x : S256x4096.Idx → α) (r : Fin 256) (k : Fin 4096) (m : Fin 128) (hm : m.val = k.val % 128) :
    shapeCast S256x32x128 x shapeCasts_S256x4096_S256x32x128 (ix3 r (grpH k) m) = x (ix2 r k) := by
  refine shapeCast_apply x shapeCasts_S256x4096_S256x32x128 (ix3 r (grpH k) m) (ix2 r k) ?_
  rw [Shape.rowMajor_val_two, Shape.rowMajor_val_three]
  have hk := k.isLt
  show r.val * 4096 + k.val = (r.val * 32 + k.val / 128) * 128 + m.val
  omega

/-- Flattening [256, 32, 128] → [256, 4096]: position (r, k) reads position (r, k / 128, k % 128). -/
theorem cast2_apply {α : Type} (x : S256x32x128.Idx → α) (r : Fin 256) (k : Fin 4096) (m : Fin 128) (hm : m.val = k.val % 128) :
    shapeCast S256x4096 x shapeCasts_S256x32x128_S256x4096 (ix2 r k) = x (ix3 r (grpH k) m) := by
  refine shapeCast_apply x shapeCasts_S256x32x128_S256x4096 (ix2 r k) (ix3 r (grpH k) m) ?_
  rw [Shape.rowMajor_val_two, Shape.rowMajor_val_three]
  have hk := k.isLt
  show (r.val * 32 + k.val / 128) * 128 + m.val = r.val * 4096 + k.val
  omega

/-- A [256, 32] array given a unit last axis and repeated 128 times along it reads, at (r, g, m), its entry (r, g). -/
theorem bcast_apply {α : Type} (y : S256x32.Idx → α) (r : Fin 256) (g : Fin 32) (m : Fin 128) :
    broadcastTo S256x32x128 (shapeCast S256x32x1 y shapeCasts_S256x32_S256x32x1) broadcasts_S256x32x1_S256x32x128 (ix3 r g m) = y (ix2 r g) := by
  refine (broadcastTo_apply _ broadcasts_S256x32x1_S256x32x128 (ix3 r g m) (ix3 r g (0 : Fin 1)) (fun a => ?_)).trans ?_
  · match a with
    | ⟨0, _⟩ => rfl
    | ⟨1, _⟩ => rfl
    | ⟨2, _⟩ => rfl
  · refine shapeCast_apply y shapeCasts_S256x32_S256x32x1 (ix3 r g (0 : Fin 1)) (ix2 r g) ?_
    rw [Shape.rowMajor_val_two, Shape.rowMajor_val_three]
    show r.val * 32 + g.val = (r.val * 32 + g.val) * 1 + 0
    omega

/-- The dequantized block of a [256, 4096] integer matrix with per-group zero points and scales, as the body builds it:
    the words as reals, regrouped to [256, 32, 128], the zero point of the group subtracted, the scale of the group
    multiplied in, flattened back to [256, 4096]. -/
abbrev deqBlock (q : Vec Ideal S256x4096 .i32) (zp : Vec Ideal S256x32 .i32) (s : Vec Ideal S256x32 .f32) : FVec Ideal S256x4096 .bf16 :=
  truncf .bf16 (shapeCast S256x4096 (mulf (subf (shapeCast S256x32x128 (sitofp .f32 q) shapeCasts_S256x4096_S256x32x128) (broadcastTo S256x32x128 (shapeCast S256x32x1 (sitofp .f32 zp) shapeCasts_S256x32_S256x32x1) broadcasts_S256x32x1_S256x32x128)) (broadcastTo S256x32x128 (shapeCast S256x32x1 s shapeCasts_S256x32_S256x32x1) broadcasts_S256x32x1_S256x32x128)) shapeCasts_S256x32x128_S256x4096) bitsLt_bf16_f32

/-- Entry (r, k) of the dequantized block is (q[r, k] − zp[r, k / 128]) · s[r, k / 128]: position (r, k) of [256, 4096] is
    position (r, k / 128, k % 128) of [256, 32, 128], and the zero point and scale are constant along the last axis. -/
theorem deq_apply (q : Vec Ideal S256x4096 .i32) (zp : Vec Ideal S256x32 .i32) (s : Vec Ideal S256x32 .f32) (r : Fin 256) (k : Fin 4096) :
    deqBlock q zp s (ix2 r k) = Cert.Ffn.wUp q s zp r k := by
  let m : Fin 128 := ⟨k.val % 128, Nat.mod_lt _ (by decide)⟩
  have hm : m.val = k.val % 128 := rfl
  refine (truncf_apply _ bitsLt_bf16_f32 (ix2 r k)).trans ?_
  refine (cast2_apply _ r k m hm).trans ?_
  show ((shapeCast S256x32x128 (sitofp (F := Ideal) .f32 q) shapeCasts_S256x4096_S256x32x128) (ix3 r (grpH k) m)
      - (broadcastTo S256x32x128 (shapeCast S256x32x1 (sitofp (F := Ideal) .f32 zp) shapeCasts_S256x32_S256x32x1) broadcasts_S256x32x1_S256x32x128) (ix3 r (grpH k) m))
      * (broadcastTo S256x32x128 (shapeCast S256x32x1 s shapeCasts_S256x32_S256x32x1) broadcasts_S256x32x1_S256x32x128) (ix3 r (grpH k) m) = _
  rw [cast3_apply _ r k m hm, bcast_apply, bcast_apply]
  rfl

/-! The operand indices of the product at output index i and contraction position q: the left operand is read at
    (i 0, q), the right operand at (i 1, q). -/

theorem lhs_dot_0 (i : S64x256.Idx) (q : dot_S64x4096_S256x4096_S64x256_1_1_0_0_n_n.contr.Idx) :
    (dot_S64x4096_S256x4096_S64x256_1_1_0_0_n_n.lhsIdx i q 0).val = (i 0).val := by
  unfold DotDims.lhsIdx
  rw [dif_neg (show ¬(0 : Fin S64x4096.rank) ∈ dot_S64x4096_S256x4096_S64x256_1_1_0_0_n_n.lhsBatch by decide), dif_pos (show (0 : Fin S64x4096.rank) ∈ dot_S64x4096_S256x4096_S64x256_1_1_0_0_n_n.lhsNonContracting by decide)]
  rfl
theorem lhs_dot_1 (i : S64x256.Idx) (q : dot_S64x4096_S256x4096_S64x256_1_1_0_0_n_n.contr.Idx) :
    (dot_S64x4096_S256x4096_S64x256_1_1_0_0_n_n.lhsIdx i q 1).val = (q ⟨0, by decide⟩).val :=
  dot_S64x4096_S256x4096_S64x256_1_1_0_0_n_n.lhsIdx_val_of_single rfl i q
theorem rhs_dot_0 (i : S64x256.Idx) (q : dot_S64x4096_S256x4096_S64x256_1_1_0_0_n_n.contr.Idx) :
    (dot_S64x4096_S256x4096_S64x256_1_1_0_0_n_n.rhsIdx i q 0).val = (i 1).val := by
  unfold DotDims.rhsIdx
  rw [dif_neg (show ¬(0 : Fin S256x4096.rank) ∈ dot_S64x4096_S256x4096_S64x256_1_1_0_0_n_n.rhsBatch by decide), dif_pos (show (0 : Fin S256x4096.rank) ∈ dot_S64x4096_S256x4096_S64x256_1_1_0_0_n_n.rhsNonContracting by decide)]
  rfl
theorem rhs_dot_1 (i : S64x256.Idx) (q : dot_S64x4096_S256x4096_S64x256_1_1_0_0_n_n.contr.Idx) :
    (dot_S64x4096_S256x4096_S64x256_1_1_0_0_n_n.rhsIdx i q 1).val = (q ⟨0, by decide⟩).val :=
  dot_S64x4096_S256x4096_S64x256_1_1_0_0_n_n.rhsIdx_val_of_single rfl i q

/-- The product into a zero accumulator at (t, r) is Σ_k x[t, k] · w[r, k]. -/
theorem mm_apply (x : FVec Ideal S64x4096 .bf16) (w : FVec Ideal S256x4096 .bf16) (t : Fin 64) (r : Fin 256) :
    (matmul dot_S64x4096_S256x4096_S64x256_1_1_0_0_n_n none x w (constant S64x256 .f32 0x00000000#32) : FVec Ideal S64x256 .f32) (ix2 t r)
      = ∑ k : Fin 4096, x (ix2 t k) * w (ix2 r k) := by
  simp only [matmul]
  rw [Ideal.matmul_constant_zero_apply, ← Equiv.sum_comp (contrEquiv1 dot_S64x4096_S256x4096_S64x256_1_1_0_0_n_n 4096 rfl rfl).symm]
  refine Finset.sum_congr rfl fun k _ => ?_
  have hk := contrEquiv1_symm_val dot_S64x4096_S256x4096_S64x256_1_1_0_0_n_n 4096 rfl rfl k
  have el : dot_S64x4096_S256x4096_S64x256_1_1_0_0_n_n.lhsIdx (ix2 t r) ((contrEquiv1 dot_S64x4096_S256x4096_S64x256_1_1_0_0_n_n 4096 rfl rfl).symm k) = ix2 t k := funext fun a => Fin.ext (by
    match a with
    | ⟨0, _⟩ => exact lhs_dot_0 _ _
    | ⟨1, _⟩ => exact (lhs_dot_1 _ _).trans hk)
  have er : dot_S64x4096_S256x4096_S64x256_1_1_0_0_n_n.rhsIdx (ix2 t r) ((contrEquiv1 dot_S64x4096_S256x4096_S64x256_1_1_0_0_n_n 4096 rfl rfl).symm k) = ix2 r k := funext fun a => Fin.ext (by
    match a with
    | ⟨0, _⟩ => exact rhs_dot_0 _ _
    | ⟨1, _⟩ => exact (rhs_dot_1 _ _).trans hk)
  rw [el, er]

/-- One projection: the body's product of the loaded x block with a dequantized block, into a zero accumulator, is the
    specification's projection. -/
theorem proj_apply (x : Vec Ideal S64x4096 .bf16) (q : Vec Ideal S256x4096 .i32) (zp : Vec Ideal S256x32 .i32) (s : Vec Ideal S256x32 .f32)
    (t : Fin 64) (r : Fin 256) :
    (matmul dot_S64x4096_S256x4096_S64x256_1_1_0_0_n_n none (shapeCast S64x4096 x shapeCasts_S64x4096_S64x4096 : FVec Ideal S64x4096 .bf16) (deqBlock q zp s) (constant S64x256 .f32 0x00000000#32) : FVec Ideal S64x256 .f32) (ix2 t r)
      = Cert.Ffn.proj (R := 256) x q s zp t r := by
  rw [shapeCast_self]
  refine (mm_apply x (deqBlock q zp s) t r).trans ?_
  unfold Cert.Ffn.proj
  exact Finset.sum_congr rfl fun k _ => congrArg (x (ix2 t k) * ·) (deq_apply q zp s r k)

/-- The stored value at (t, r) is the gated activation (x1 · logistic x1) · x3 of the two projections. -/
theorem pay_apply (v0 : Vec Ideal S256x4096 .i32) (v3 : Vec Ideal S256x32 .i32) (v6 : Vec Ideal S256x32 .f32) (v14 : Vec Ideal S256x4096 .i32) (v17 : Vec Ideal S256x32 .i32) (v20 : Vec Ideal S256x32 .f32) (v28 : Vec Ideal S64x4096 .bf16) (t : Fin 64) (r : Fin 256) :
    k0_pay1 (F := Ideal) v0 v3 v6 v14 v17 v20 v28 (ix2 t r) = Cert.Ffn.gate (R := 256) v28 v0 v6 v3 v14 v20 v17 t r := by
  have e1 := proj_apply v28 v0 v3 v6 t r
  have e3 := proj_apply v28 v14 v17 v20 t r
  unfold Cert.Ffn.gate
  rw [← e1, ← e3]
  rfl

end Cert.Ffn.Body0
end
-- ==== Proof.Body1.lean ====
/-
  The down-projection kernel's body, read at one output index.

  The body holds a block of 128 rows of the quantized matrix W2 (integer words q[r, k], one zero point zp[r, g] and one
  scale s[r, g] per group g = k / 128 of 128 consecutive columns) and the whole gated activation g : [64, 11008]. It
  dequantizes the block through the grouped view [128, 86, 128] — entry (r, g, c) of that view is entry (r, 128 g + c) of
  the flat block, so (q − zp) · s computed there and read back flat at (r, k) is
  (q[r, k] − zp[r, k / 128]) · s[r, k / 128] — and contracts the activation's row t with the dequantized row r over the
  11008 columns. Over the extended reals, with every format change the identity, this is the specification's
  `Cert.Ffn.down` at (t, r).
-/
import proofs.«118565_j43396349559335_1_alg».proof.Proof.Gen.KernelIdeal.Skeleton
import proofs.«118565_j43396349559335_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Ffn.Body1

open Cert.KernelIdeal Cert.KernelIdeal.Gen Idealize.ShloMosaic Idealize.ShloMosaic.ValueIdx

/-! ## The grouped view of a [128, 11008] block -/

/-- Column k of the flat block, inside its group: k % 128. -/
def lane (k : Fin 11008) : Fin 128 := ⟨k.val % 128, Nat.mod_lt _ (by decide)⟩

/-- The flat block [128, 11008] viewed as [128, 86, 128]: entry (r, g, c) is the flat entry (r, 128 g + c). -/
theorem group_apply {α : Type} (x : S128x11008.Idx → α) (h : S128x11008.ShapeCasts S128x86x128)
    (r : Fin 128) (g : Fin 86) (c : Fin 128) :
    shapeCast S128x86x128 x h (ix3 r g c)
      = x (ix2 r (⟨g.val * 128 + c.val, by have := g.isLt; have := c.isLt; omega⟩ : Fin 11008)) :=
  shapeCast_apply x h _ _ (by
    rw [Shape.rowMajor_val_two, Shape.rowMajor_val_three]
    show r.val * 11008 + (g.val * 128 + c.val) = (r.val * 86 + g.val) * 128 + c.val
    omega)

/-- The grouped view [128, 86, 128] read back flat: entry (r, k) is the grouped entry (r, k / 128, k % 128). -/
theorem flat_apply {α : Type} (y : S128x86x128.Idx → α) (h : S128x86x128.ShapeCasts S128x11008)
    (r : Fin 128) (k : Fin 11008) :
    shapeCast S128x11008 y h (ix2 r k) = y (ix3 r (grpI k) (lane k)) :=
  shapeCast_apply y h _ _ (by
    rw [Shape.rowMajor_val_three, Shape.rowMajor_val_two]
    show (r.val * 86 + k.val / 128) * 128 + k.val % 128 = r.val * 11008 + k.val
    omega)

/-- A per-group quantity z[r, g], given a unit last axis and broadcast along the 128 columns of each group, reads
    z[r, g] at every (r, g, c). -/
theorem perGroup_apply {α : Type} (z : S128x86.Idx → α) (h1 : S128x86.ShapeCasts S128x86x1)
    (h2 : S128x86x1.Broadcasts S128x86x128) (r : Fin 128) (g : Fin 86) (c : Fin 128) :
    broadcastTo S128x86x128 (shapeCast S128x86x1 z h1) h2 (ix3 r g c) = z (ix2 r g) := by
  refine (broadcastTo_apply _ h2 (ix3 r g c) (ix3 r g (0 : Fin 1)) fun a => ?_).trans ?_
  · match a with
    | ⟨0, _⟩ => show r.val = if (128 : Nat) = 1 then 0 else r.val; rw [if_neg (by decide)]
    | ⟨1, _⟩ => show g.val = if (86 : Nat) = 1 then 0 else g.val; rw [if_neg (by decide)]
    | ⟨2, _⟩ => show 0 = if (1 : Nat) = 1 then 0 else c.val; rw [if_pos rfl]
  · exact shapeCast_apply z h1 _ _ (by
      rw [Shape.rowMajor_val_two, Shape.rowMajor_val_three]
      show r.val * 86 + g.val = (r.val * 86 + g.val) * 1 + 0
      omega)

/-! ## The dequantized block -/

/-- The block the body feeds the contraction, read at (r, k): the specification's dequantized entry. -/
theorem dequant_apply (q : Vec Ideal S128x11008 .i32) (zp : Vec Ideal S128x86 .i32) (s : Vec Ideal S128x86 .f32)
    (h1 : S128x11008.ShapeCasts S128x86x128) (h2 : S128x86.ShapeCasts S128x86x1)
    (h3 : S128x86x1.Broadcasts S128x86x128) (h4 : S128x86x128.ShapeCasts S128x11008)
    (hb : FTy.bits .bf16 < FTy.bits .f32) (r : Fin 128) (k : Fin 11008) :
    (truncf .bf16
        (shapeCast S128x11008
          (mulf
            (subf (shapeCast S128x86x128 (sitofp (F := Ideal) .f32 q) h1)
              (broadcastTo S128x86x128 (shapeCast S128x86x1 (sitofp (F := Ideal) .f32 zp) h2) h3))
            (broadcastTo S128x86x128 (shapeCast S128x86x1 s h2) h3)) h4) hb : FVec Ideal S128x11008 .bf16) (ix2 r k)
      = wDown (R := 128) q s zp r k := by
  refine (truncf_apply _ hb _).trans ?_
  refine (flat_apply _ h4 r k).trans ?_
  refine (mulf_apply _ _ _).trans ?_
  unfold wDown
  refine congrArg₂ (· * ·) ?_ (perGroup_apply s h2 h3 r (grpI k) (lane k))
  refine (subf_apply _ _ _).trans ?_
  refine congrArg₂ (· - ·) ?_ ?_
  · refine (group_apply _ h1 r (grpI k) (lane k)).trans ?_
    have hk : (⟨(grpI k).val * 128 + (lane k).val, by have := (grpI k).isLt; have := (lane k).isLt; omega⟩ : Fin 11008) = k :=
      Fin.ext (by show k.val / 128 * 128 + k.val % 128 = k.val; omega)
    rw [hk]
    rfl
  · refine (perGroup_apply _ h2 h3 r (grpI k) (lane k)).trans ?_
    rfl

/-! ## The contraction

The body's one matrix product contracts axis 1 of the activation [64, 11008] with axis 1 of the dequantized block
[128, 11008]; its result's axes are the activation's axis 0 and the block's axis 0. The four lemmas say which
coordinate of the result index (t, r) or of the contraction position each operand axis reads. -/

theorem lhs_axis0 (i : S64x128.Idx) (c : dot_S64x11008_S128x11008_S64x128_1_1_0_0_n_n.contr.Idx) :
    (dot_S64x11008_S128x11008_S64x128_1_1_0_0_n_n.lhsIdx i c 0).val = (i 0).val := by
  unfold DotDims.lhsIdx
  rw [dif_neg (show ¬(0 : Fin S64x11008.rank) ∈ dot_S64x11008_S128x11008_S64x128_1_1_0_0_n_n.lhsBatch by decide),
    dif_pos (show (0 : Fin S64x11008.rank) ∈ dot_S64x11008_S128x11008_S64x128_1_1_0_0_n_n.lhsNonContracting by decide)]
  rfl

theorem lhs_axis1 (i : S64x128.Idx) (c : dot_S64x11008_S128x11008_S64x128_1_1_0_0_n_n.contr.Idx) :
    (dot_S64x11008_S128x11008_S64x128_1_1_0_0_n_n.lhsIdx i c 1).val = (c ⟨0, by decide⟩).val :=
  dot_S64x11008_S128x11008_S64x128_1_1_0_0_n_n.lhsIdx_val_of_single rfl i c

theorem rhs_axis0 (i : S64x128.Idx) (c : dot_S64x11008_S128x11008_S64x128_1_1_0_0_n_n.contr.Idx) :
    (dot_S64x11008_S128x11008_S64x128_1_1_0_0_n_n.rhsIdx i c 0).val = (i 1).val := by
  unfold DotDims.rhsIdx
  rw [dif_neg (show ¬(0 : Fin S128x11008.rank) ∈ dot_S64x11008_S128x11008_S64x128_1_1_0_0_n_n.rhsBatch by decide),
    dif_pos (show (0 : Fin S128x11008.rank) ∈ dot_S64x11008_S128x11008_S64x128_1_1_0_0_n_n.rhsNonContracting by decide)]
  rfl

theorem rhs_axis1 (i : S64x128.Idx) (c : dot_S64x11008_S128x11008_S64x128_1_1_0_0_n_n.contr.Idx) :
    (dot_S64x11008_S128x11008_S64x128_1_1_0_0_n_n.rhsIdx i c 1).val = (c ⟨0, by decide⟩).val :=
  dot_S64x11008_S128x11008_S64x128_1_1_0_0_n_n.rhsIdx_val_of_single rfl i c

/-- The product into a zero accumulator, read at (t, r): Σ_i x[t, i] · w[r, i] over the 11008 columns. -/
theorem contract_apply (x : FVec Ideal S64x11008 .bf16) (w : FVec Ideal S128x11008 .bf16) (t : Fin 64) (r : Fin 128) :
    matmul dot_S64x11008_S128x11008_S64x128_1_1_0_0_n_n none x w (constant S64x128 .f32 0x00000000#32) (ix2 t r)
      = ∑ i : Fin 11008, x (ix2 t i) * w (ix2 r i) := by
  refine (Ideal.matmul_constant_zero_apply dot_S64x11008_S128x11008_S64x128_1_1_0_0_n_n none x w (ix2 t r)).trans ?_
  rw [← Equiv.sum_comp (contrEquiv1 dot_S64x11008_S128x11008_S64x128_1_1_0_0_n_n 11008 rfl rfl).symm]
  refine Finset.sum_congr rfl fun k _ => ?_
  have hk := contrEquiv1_symm_val dot_S64x11008_S128x11008_S64x128_1_1_0_0_n_n 11008 rfl rfl k
  have el : dot_S64x11008_S128x11008_S64x128_1_1_0_0_n_n.lhsIdx (ix2 t r)
      ((contrEquiv1 dot_S64x11008_S128x11008_S64x128_1_1_0_0_n_n 11008 rfl rfl).symm k) = ix2 t k :=
    funext fun a => Fin.ext (by
      match a with
      | ⟨0, _⟩ => exact lhs_axis0 _ _
      | ⟨1, _⟩ => exact (lhs_axis1 _ _).trans hk)
  have er : dot_S64x11008_S128x11008_S64x128_1_1_0_0_n_n.rhsIdx (ix2 t r)
      ((contrEquiv1 dot_S64x11008_S128x11008_S64x128_1_1_0_0_n_n 11008 rfl rfl).symm k) = ix2 r k :=
    funext fun a => Fin.ext (by
      match a with
      | ⟨0, _⟩ => exact rhs_axis0 _ _
      | ⟨1, _⟩ => exact (rhs_axis1 _ _).trans hk)
  rw [el, er]

/-! ## The stored value -/

/-- What the down-projection body stores, read at (t, r), is the specification's `down` of the blocks it loaded. -/
theorem pay_apply (v0 : Vec Ideal S128x11008 .i32) (v3 : Vec Ideal S128x86 .i32) (v6 : Vec Ideal S128x86 .f32)
    (v14 : Vec Ideal S64x11008 .bf16) (t : Fin 64) (r : Fin 128) :
    k1_pay1 (F := Ideal) v0 v3 v6 v14 (ix2 t r) = Cert.Ffn.down (R := 128) v14 v0 v6 v3 t r := by
  unfold k1_pay1
  refine (contract_apply _ _ t r).trans ?_
  unfold Cert.Ffn.down
  refine Finset.sum_congr rfl fun i _ => ?_
  refine congrArg₂ (· * ·) ?_ (dequant_apply v0 v3 v6 _ _ _ _ _ r i)
  rw [shapeCast_self]

end Cert.Ffn.Body1

end
-- ==== Proof.KValue.lean ====
/-
  The kernel program's result as one function of its ten arguments.

  The program is one host operation (x rounded to a narrower format: the identity over the extended reals) and two
  grid kernels. The gate kernel runs over 43 points; point t holds rows 256·t … 256·t + 255 of the first and second
  quantized weight matrices (with their scales and zero points) and all of x, and writes columns 256·t … 256·t + 255 of
  the gated activation g : [64, 11008]. The down-projection kernel runs over 32 points; point t holds rows
  128·t … 128·t + 127 of the third weight matrix and all of g, and writes columns 128·t … 128·t + 127 of the result.
  For each kernel: what a block read at a local index is in the whole array (the block index times the block size plus
  the local coordinate), what the body leaves in the output block (the specification at the rows the block stands
  for), that the output's blocks tile the array, hence the array after the region as ONE function of the arrays the
  region found. Then the two regions are chained: the second finds g where the first left it, and every argument
  array is found as launched.
-/
import proofs.«118565_j43396349559335_1_alg».proof.Proof.Gen.KernelIdeal.Frame
import proofs.«118565_j43396349559335_1_alg».proof.Proof.KRun
import proofs.«118565_j43396349559335_1_alg».proof.Proof.SpecBlocks
import proofs.«118565_j43396349559335_1_alg».proof.Proof.Body0
import proofs.«118565_j43396349559335_1_alg».proof.Proof.Body1
import Idealize.ShloMosaic.Lib.Pipeline.Value
import Idealize.ShloMosaic.Lib.ValueIdx
import Idealize.ShloMosaic.Lib.StableHlo.Run

set_option maxRecDepth 16384

noncomputable section

open scoped BigOperators

namespace Cert.Ffn.KVal

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

section Regions

variable (V : (c : Dev nD) → (b : Ref sig .tc) → Buf (Elt Ideal) ((c : Thread nD τ).loc b))

/-! ## The gate kernel: 43 points, point t holding rows 256·t … 256·t + 255 of the two weight matrices -/

/-- The block indices of the gate kernel's windows at point t: x is one whole block; every weight, scale and zero-point
    window is at block row t; the output at block column t. -/
theorem idx0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = t.val :=
  (by decide +kernel : ∀ t : Fin grid0.N, _)

/-- The global row a block row stands for. -/
def row0 (t : Fin cfg0.N) (q : Fin 256) : Fin 11008 :=
  ⟨256 * t.val + q.val, by have h1 : t.val < 43 := N_0 ▸ t.isLt; have h2 := q.isLt; omega⟩

theorem blk0_x (c : Dev nD) (t : Fin cfg0.N) (p : Fin 64) (k : Fin 4096) :
    (iblk0 V c 0 t : Vec Ideal S64x4096 .bf16) (ix2 p k) = (V c main_v0 : Vec Ideal S64x4096 .bf16) (ix2 p k) := by
  obtain ⟨e0, e1, -⟩ := idx0 t
  unfold iblk0
  rw [View.read_apply]
  show V c main_v0 _ = V c main_v0 _
  congr 1
  funext a
  apply Fin.ext
  match a with
  | ⟨0, _⟩ => show win0_0.index t 0 * 64 + 1 * p.val = p.val; rw [e0]; omega
  | ⟨1, _⟩ => show win0_0.index t 1 * 4096 + 1 * k.val = k.val; rw [e1]; omega

theorem blk0_w (c : Dev nD) (t : Fin cfg0.N) (q : Fin 256) (k : Fin 4096) :
    ((iblk0 V c 1 t : Vec Ideal S256x4096 .i32) (ix2 q k) = (V c main_arg1 : Vec Ideal S11008x4096 .i32) (ix2 (row0 t q) k))
    ∧ ((iblk0 V c 4 t : Vec Ideal S256x4096 .i32) (ix2 q k) = (V c main_arg4 : Vec Ideal S11008x4096 .i32) (ix2 (row0 t q) k)) := by
  obtain ⟨-, -, e10, e11, -, -, -, -, e40, e41, -⟩ := idx0 t
  constructor
  · unfold iblk0
    rw [View.read_apply]
    show V c main_arg1 _ = V c main_arg1 _
    congr 1
    funext a
    apply Fin.ext
    match a with
    | ⟨0, _⟩ => show win0_1.index t 0 * 256 + 1 * q.val = 256 * t.val + q.val; rw [e10]; omega
    | ⟨1, _⟩ => show win0_1.index t 1 * 4096 + 1 * k.val = k.val; rw [e11]; omega
  · unfold iblk0
    rw [View.read_apply]
    show V c main_arg4 _ = V c main_arg4 _
    congr 1
    funext a
    apply Fin.ext
    match a with
    | ⟨0, _⟩ => show win0_4.index t 0 * 256 + 1 * q.val = 256 * t.val + q.val; rw [e40]; omega
    | ⟨1, _⟩ => show win0_4.index t 1 * 4096 + 1 * k.val = k.val; rw [e41]; omega

theorem blk0_g (c : Dev nD) (t : Fin cfg0.N) (q : Fin 256) (g : Fin 32) :
    ((iblk0 V c 2 t : Vec Ideal S256x32 .f32) (ix2 q g) = (V c main_arg2 : Vec Ideal S11008x32 .f32) (ix2 (row0 t q) g))
    ∧ ((iblk0 V c 3 t : Vec Ideal S256x32 .i32) (ix2 q g) = (V c main_arg3 : Vec Ideal S11008x32 .i32) (ix2 (row0 t q) g))
    ∧ ((iblk0 V c 5 t : Vec Ideal S256x32 .f32) (ix2 q g) = (V c main_arg5 : Vec Ideal S11008x32 .f32) (ix2 (row0 t q) g))
    ∧ ((iblk0 V c 6 t : Vec Ideal S256x32 .i32) (ix2 q g) = (V c main_arg6 : Vec Ideal S11008x32 .i32) (ix2 (row0 t q) g)) := by
  obtain ⟨-, -, -, -, e20, e21, e30, e31, -, -, e50, e51, e60, e61, -⟩ := idx0 t
  refine ⟨?_, ?_, ?_, ?_⟩
  · unfold iblk0
    rw [View.read_apply]
    show V c main_arg2 _ = V c main_arg2 _
    congr 1
    funext a
    apply Fin.ext
    match a with
    | ⟨0, _⟩ => show win0_2.index t 0 * 256 + 1 * q.val = 256 * t.val + q.val; rw [e20]; omega
    | ⟨1, _⟩ => show win0_2.index t 1 * 32 + 1 * g.val = g.val; rw [e21]; omega
  · unfold iblk0
    rw [View.read_apply]
    show V c main_arg3 _ = V c main_arg3 _
    congr 1
    funext a
    apply Fin.ext
    match a with
    | ⟨0, _⟩ => show win0_3.index t 0 * 256 + 1 * q.val = 256 * t.val + q.val; rw [e30]; omega
    | ⟨1, _⟩ => show win0_3.index t 1 * 32 + 1 * g.val = g.val; rw [e31]; omega
  · unfold iblk0
    rw [View.read_apply]
    show V c main_arg5 _ = V c main_arg5 _
    congr 1
    funext a
    apply Fin.ext
    match a with
    | ⟨0, _⟩ => show win0_5.index t 0 * 256 + 1 * q.val = 256 * t.val + q.val; rw [e50]; omega
    | ⟨1, _⟩ => show win0_5.index t 1 * 32 + 1 * g.val = g.val; rw [e51]; omega
  · unfold iblk0
    rw [View.read_apply]
    show V c main_arg6 _ = V c main_arg6 _
    congr 1
    funext a
    apply Fin.ext
    match a with
    | ⟨0, _⟩ => show win0_6.index t 0 * 256 + 1 * q.val = 256 * t.val + q.val; rw [e60]; omega
    | ⟨1, _⟩ => show win0_6.index t 1 * 32 + 1 * g.val = g.val; rw [e61]; omega

/-- What the gate kernel's body leaves at point t, at row p and block column q, is the gated activation at column 256·t + q. -/
theorem gate_blk (c : Dev nD) (t : Fin cfg0.N) (p : Fin 64) (q : Fin 256) :
    k0_pay1 (F := Ideal) (iblk0 V c 1 t) (iblk0 V c 3 t) (iblk0 V c 2 t) (iblk0 V c 4 t) (iblk0 V c 6 t) (iblk0 V c 5 t) (iblk0 V c 0 t) (ix2 p q)
      = Cert.Ffn.gateArr (V c main_v0) (V c main_arg1) (V c main_arg2) (V c main_arg3) (V c main_arg4) (V c main_arg5) (V c main_arg6) (ix2 p (row0 t q)) :=
  (Cert.Ffn.Body0.pay_apply (iblk0 V c 1 t) (iblk0 V c 3 t) (iblk0 V c 2 t) (iblk0 V c 4 t) (iblk0 V c 6 t) (iblk0 V c 5 t) (iblk0 V c 0 t) p q).trans
    (Cert.Ffn.gate_congr (iblk0 V c 0 t) (V c main_v0) (iblk0 V c 1 t) (iblk0 V c 2 t) (iblk0 V c 3 t) (iblk0 V c 4 t) (iblk0 V c 5 t) (iblk0 V c 6 t)
      (V c main_arg1) (V c main_arg2) (V c main_arg3) (V c main_arg4) (V c main_arg5) (V c main_arg6) p q (row0 t q)
      (fun k => blk0_x V c t p k) (fun k => (blk0_w V c t q k).1) (fun g => (blk0_g V c t q g).1) (fun g => (blk0_g V c t q g).2.1)
      (fun k => (blk0_w V c t q k).2) (fun g => (blk0_g V c t q g).2.2.1) (fun g => (blk0_g V c t q g).2.2.2))

/-- What point t writes back is its block of the gated activation of the arrays the region finds. -/
theorem flushed0 (c : Dev nD) (t : Fin cfg0.N) :
    (dat0 V c).flushed 7 t = ((cfg0.win 7).blk t).view.read (Elt Ideal)
      (Cert.Ffn.gateArr (V c main_v0) (V c main_arg1) (V c main_arg2) (V c main_arg3) (V c main_arg4) (V c main_arg5) (V c main_arg6)) := by
  show (cfg0.win 7).cut (grid0.coords t) ((dat0 V c).after 7 t) = _
  rw [after0_7]
  unfold out0_7
  rw [View.canon_unit_zero hz]
  simp only [View.ld_unit_zero (S := S256x4096) hz, View.ld_unit_zero (S := S256x32) hz, View.ld_unit_zero (S := S64x4096) hz]
  obtain ⟨-, -, -, -, -, -, -, -, -, -, -, -, -, -, e70, e71⟩ := idx0 t
  funext j
  obtain ⟨p, q, rfl⟩ : ∃ (p : Fin 64) (q : Fin 256), j = ix2 p q := ⟨j 0, j 1, eq_ix2 j⟩
  rw [View.read_apply]
  refine (gate_blk V c t p q).trans ?_
  congr 1
  funext a
  apply Fin.ext
  match a with
  | ⟨0, _⟩ => show p.val = win0_7.index t 0 * 64 + 1 * p.val; rw [e70]; omega
  | ⟨1, _⟩ => show 256 * t.val + q.val = win0_7.index t 1 * 256 + 1 * q.val; rw [e71]; omega

/-- An index of the activation array is in point t's block iff each coordinate is in the block's range on its axis. -/
theorem mem_blk0 (t : Fin cfg0.N) (i : S64x11008.Idx) :
    i ∈ ((cfg0.win 7).blk t).view.set ↔ ∀ a : Fin 2, win0_7.index t a * S64x256.size a ≤ (i a).val ∧ (i a).val < win0_7.index t a * S64x256.size a + S64x256.size a := by
  show i ∈ ((View.whole main_v1).slice (win0_7.rect t)).set ↔ _
  rw [View.set_slice_whole, Rect.mem_set_unit]
  exact Iff.rfl

/-- The 43 column blocks tile the activation array, so after the region it holds the gated activation of the arrays the
    region found. -/
theorem final0 (c : Dev nD) : (dat0 V c).arrAt 7 cfg0.N
    = Cert.Ffn.gateArr (V c main_v0) (V c main_arg1) (V c main_arg2) (V c main_arg3) (V c main_arg4) (V c main_arg5) (V c main_arg6) :=
  (dat0 V c).arrAt_eq_of_cover 7 _ (fun t _ => flushed0 V c t) fun i => by
    have h0 : (i 0).val < 64 := (i 0).isLt
    have h1 : (i 1).val < 11008 := (i 1).isLt
    have hN : cfg0.N = 43 := N_0
    refine ⟨⟨(i 1).val / 256, by omega⟩, flush0_7 _, ?_⟩
    rw [mem_blk0]
    obtain ⟨-, -, -, -, -, -, -, -, -, -, -, -, -, -, e70, e71⟩ := idx0 ⟨(i 1).val / 256, by omega⟩
    intro a
    match a with
    | ⟨0, _⟩ => show win0_7.index _ 0 * 64 ≤ (i 0).val ∧ (i 0).val < win0_7.index _ 0 * 64 + 64; rw [e70]; omega
    | ⟨1, _⟩ => show win0_7.index _ 1 * 256 ≤ (i 1).val ∧ (i 1).val < win0_7.index _ 1 * 256 + 256; rw [e71]; show (i 1).val / 256 * 256 ≤ (i 1).val ∧ (i 1).val < (i 1).val / 256 * 256 + 256; omega

/-! ## The down-projection kernel: 32 points, point t holding rows 128·t … 128·t + 127 of the third weight matrix -/

/-- The block indices of the down-projection kernel's windows at point t: the weight, scale and zero-point windows at
    block row t; the activation one whole block; the output at block column t. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = t.val :=
  (by decide +kernel : ∀ t : Fin grid1.N, _)

/-- The global row a block row stands for. -/
def row1 (t : Fin cfg1.N) (q : Fin 128) : Fin 4096 :=
  ⟨128 * t.val + q.val, by have h1 : t.val < 32 := N_1 ▸ t.isLt; have h2 := q.isLt; omega⟩

theorem blk1_g (c : Dev nD) (t : Fin cfg1.N) (p : Fin 64) (i : Fin 11008) :
    (iblk1 V c 3 t : Vec Ideal S64x11008 .bf16) (ix2 p i) = (V c main_v1 : Vec Ideal S64x11008 .bf16) (ix2 p i) := by
  obtain ⟨-, -, -, -, -, -, e0, e1, -⟩ := idx1 t
  unfold iblk1
  rw [View.read_apply]
  show V c main_v1 _ = V c main_v1 _
  congr 1
  funext a
  apply Fin.ext
  match a with
  | ⟨0, _⟩ => show win1_3.index t 0 * 64 + 1 * p.val = p.val; rw [e0]; omega
  | ⟨1, _⟩ => show win1_3.index t 1 * 11008 + 1 * i.val = i.val; rw [e1]; omega

theorem blk1_w (c : Dev nD) (t : Fin cfg1.N) (q : Fin 128) (i : Fin 11008) :
    (iblk1 V c 0 t : Vec Ideal S128x11008 .i32) (ix2 q i) = (V c main_arg7 : Vec Ideal S4096x11008 .i32) (ix2 (row1 t q) i) := by
  obtain ⟨e0, e1, -⟩ := idx1 t
  unfold iblk1
  rw [View.read_apply]
  show V c main_arg7 _ = V c main_arg7 _
  congr 1
  funext a
  apply Fin.ext
  match a with
  | ⟨0, _⟩ => show win1_0.index t 0 * 128 + 1 * q.val = 128 * t.val + q.val; rw [e0]; omega
  | ⟨1, _⟩ => show win1_0.index t 1 * 11008 + 1 * i.val = i.val; rw [e1]; omega

theorem blk1_s (c : Dev nD) (t : Fin cfg1.N) (q : Fin 128) (g : Fin 86) :
    ((iblk1 V c 1 t : Vec Ideal S128x86 .f32) (ix2 q g) = (V c main_arg8 : Vec Ideal S4096x86 .f32) (ix2 (row1 t q) g))
    ∧ ((iblk1 V c 2 t : Vec Ideal S128x86 .i32) (ix2 q g) = (V c main_arg9 : Vec Ideal S4096x86 .i32) (ix2 (row1 t q) g)) := by
  obtain ⟨-, -, e10, e11, e20, e21, -⟩ := idx1 t
  constructor
  · unfold iblk1
    rw [View.read_apply]
    show V c main_arg8 _ = V c main_arg8 _
    congr 1
    funext a
    apply Fin.ext
    match a with
    | ⟨0, _⟩ => show win1_1.index t 0 * 128 + 1 * q.val = 128 * t.val + q.val; rw [e10]; omega
    | ⟨1, _⟩ => show win1_1.index t 1 * 86 + 1 * g.val = g.val; rw [e11]; omega
  · unfold iblk1
    rw [View.read_apply]
    show V c main_arg9 _ = V c main_arg9 _
    congr 1
    funext a
    apply Fin.ext
    match a with
    | ⟨0, _⟩ => show win1_2.index t 0 * 128 + 1 * q.val = 128 * t.val + q.val; rw [e20]; omega
    | ⟨1, _⟩ => show win1_2.index t 1 * 86 + 1 * g.val = g.val; rw [e21]; omega

/-- What the down-projection body leaves at point t, at row p and block column q, is the result at column 128·t + q. -/
theorem down_blk (c : Dev nD) (t : Fin cfg1.N) (p : Fin 64) (q : Fin 128) :
    k1_pay1 (F := Ideal) (iblk1 V c 0 t) (iblk1 V c 2 t) (iblk1 V c 1 t) (iblk1 V c 3 t) (ix2 p q)
      = Cert.Ffn.downArr (V c main_v1) (V c main_arg7) (V c main_arg8) (V c main_arg9) (ix2 p (row1 t q)) :=
  (Cert.Ffn.Body1.pay_apply (iblk1 V c 0 t) (iblk1 V c 2 t) (iblk1 V c 1 t) (iblk1 V c 3 t) p q).trans
    (Cert.Ffn.down_congr (iblk1 V c 3 t) (V c main_v1) (iblk1 V c 0 t) (iblk1 V c 1 t) (iblk1 V c 2 t)
      (V c main_arg7) (V c main_arg8) (V c main_arg9) p q (row1 t q)
      (fun i => blk1_g V c t p i) (fun i => blk1_w V c t q i) (fun g => (blk1_s V c t q g).1) (fun g => (blk1_s V c t q g).2))

/-- What point t writes back is its block of the down-projection of the arrays the region finds. -/
theorem flushed1 (c : Dev nD) (t : Fin cfg1.N) :
    (dat1 V c).flushed 4 t = ((cfg1.win 4).blk t).view.read (Elt Ideal)
      (Cert.Ffn.downArr (V c main_v1) (V c main_arg7) (V c main_arg8) (V c main_arg9)) := by
  show (cfg1.win 4).cut (grid1.coords t) ((dat1 V c).after 4 t) = _
  rw [after1_4]
  unfold out1_4
  rw [View.canon_unit_zero hz]
  simp only [View.ld_unit_zero (S := S128x11008) hz, View.ld_unit_zero (S := S128x86) hz, View.ld_unit_zero (S := S64x11008) hz]
  obtain ⟨-, -, -, -, -, -, -, -, e40, e41⟩ := idx1 t
  funext j
  obtain ⟨p, q, rfl⟩ : ∃ (p : Fin 64) (q : Fin 128), j = ix2 p q := ⟨j 0, j 1, eq_ix2 j⟩
  rw [View.read_apply]
  refine (down_blk V c t p q).trans ?_
  congr 1
  funext a
  apply Fin.ext
  match a with
  | ⟨0, _⟩ => show p.val = win1_4.index t 0 * 64 + 1 * p.val; rw [e40]; omega
  | ⟨1, _⟩ => show 128 * t.val + q.val = win1_4.index t 1 * 128 + 1 * q.val; rw [e41]; omega

theorem mem_blk1 (t : Fin cfg1.N) (i : S64x4096.Idx) :
    i ∈ ((cfg1.win 4).blk t).view.set ↔ ∀ a : Fin 2, win1_4.index t a * S64x128.size a ≤ (i a).val ∧ (i a).val < win1_4.index t a * S64x128.size a + S64x128.size a := by
  show i ∈ ((View.whole main_v2).slice (win1_4.rect t)).set ↔ _
  rw [View.set_slice_whole, Rect.mem_set_unit]
  exact Iff.rfl

/-- The 32 column blocks tile the result array, so after the region it holds the down-projection of the arrays the
    region found. -/
theorem final1 (c : Dev nD) : (dat1 V c).arrAt 4 cfg1.N
    = Cert.Ffn.downArr (V c main_v1) (V c main_arg7) (V c main_arg8) (V c main_arg9) :=
  (dat1 V c).arrAt_eq_of_cover 4 _ (fun t _ => flushed1 V c t) fun i => by
    have h0 : (i 0).val < 64 := (i 0).isLt
    have h1 : (i 1).val < 4096 := (i 1).isLt
    have hN : cfg1.N = 32 := N_1
    refine ⟨⟨(i 1).val / 128, by omega⟩, flush1_4 _, ?_⟩
    rw [mem_blk1]
    obtain ⟨-, -, -, -, -, -, -, -, e40, e41⟩ := idx1 ⟨(i 1).val / 128, by omega⟩
    intro a
    match a with
    | ⟨0, _⟩ => show win1_4.index _ 0 * 64 ≤ (i 0).val ∧ (i 0).val < win1_4.index _ 0 * 64 + 64; rw [e40]; omega
    | ⟨1, _⟩ => show win1_4.index _ 1 * 128 ≤ (i 1).val ∧ (i 1).val < win1_4.index _ 1 * 128 + 128; rw [e41]; show (i 1).val / 128 * 128 ≤ (i 1).val ∧ (i 1).val < (i 1).val / 128 * 128 + 128; omega

end Regions

/-! ## The two regions chained -/

variable (m : (ℓ : Loc nD τ sig) → Buf (Elt Ideal) ℓ) (ρ : Dev nD → PrngReg)

/-- The gate kernel finds x's narrowed copy, which over the extended reals is x as launched. -/
theorem V1_x (c : Dev nD) : V1 m ρ c main_v0 = m ((c : Thread nD τ).loc main_arg0) := by
  show StableHlo.after hostOps0 (W0 m ρ c) (Proc.devRef .tc main_v0) = _
  after_results
  rfl

/-- The gate kernel finds each of its six weight, scale and zero-point arrays as launched: no host operation and no
    region writes an argument, so the contents at a later boundary, which are the launch contents, are those at this one. -/
theorem V1_args (c : Dev nD) :
    V1 m ρ c main_arg1 = m ((c : Thread nD τ).loc main_arg1) ∧ V1 m ρ c main_arg2 = m ((c : Thread nD τ).loc main_arg2)
    ∧ V1 m ρ c main_arg3 = m ((c : Thread nD τ).loc main_arg3) ∧ V1 m ρ c main_arg4 = m ((c : Thread nD τ).loc main_arg4)
    ∧ V1 m ρ c main_arg5 = m ((c : Thread nD τ).loc main_arg5) ∧ V1 m ρ c main_arg6 = m ((c : Thread nD τ).loc main_arg6) :=
  ⟨(((W2_arr m ρ c 1).trans (((dat0 (V1 m ρ) c).arrAt_in 1 rfl _).trans (A_eq0 (V1 m ρ) c 1))).symm.trans
      ((W3_of_ne m ρ c main_arg1 (by decide)).symm.trans (W3_main_arg1 m ρ c))),
   (((W2_arr m ρ c 2).trans (((dat0 (V1 m ρ) c).arrAt_in 2 rfl _).trans (A_eq0 (V1 m ρ) c 2))).symm.trans
      ((W3_of_ne m ρ c main_arg2 (by decide)).symm.trans (W3_main_arg2 m ρ c))),
   (((W2_arr m ρ c 3).trans (((dat0 (V1 m ρ) c).arrAt_in 3 rfl _).trans (A_eq0 (V1 m ρ) c 3))).symm.trans
      ((W3_of_ne m ρ c main_arg3 (by decide)).symm.trans (W3_main_arg3 m ρ c))),
   (((W2_arr m ρ c 4).trans (((dat0 (V1 m ρ) c).arrAt_in 4 rfl _).trans (A_eq0 (V1 m ρ) c 4))).symm.trans
      ((W3_of_ne m ρ c main_arg4 (by decide)).symm.trans (W3_main_arg4 m ρ c))),
   (((W2_arr m ρ c 5).trans (((dat0 (V1 m ρ) c).arrAt_in 5 rfl _).trans (A_eq0 (V1 m ρ) c 5))).symm.trans
      ((W3_of_ne m ρ c main_arg5 (by decide)).symm.trans (W3_main_arg5 m ρ c))),
   (((W2_arr m ρ c 6).trans (((dat0 (V1 m ρ) c).arrAt_in 6 rfl _).trans (A_eq0 (V1 m ρ) c 6))).symm.trans
      ((W3_of_ne m ρ c main_arg6 (by decide)).symm.trans (W3_main_arg6 m ρ c)))⟩

/-- The down-projection kernel finds its weight, scale and zero-point arrays as launched. -/
theorem V2_args (c : Dev nD) :
    V2 m ρ c main_arg7 = m ((c : Thread nD τ).loc main_arg7) ∧ V2 m ρ c main_arg8 = m ((c : Thread nD τ).loc main_arg8)
    ∧ V2 m ρ c main_arg9 = m ((c : Thread nD τ).loc main_arg9) :=
  ⟨((W3_arr m ρ c 0).trans (((dat1 (V2 m ρ) c).arrAt_in 0 rfl _).trans (A_eq1 (V2 m ρ) c 0))).symm.trans (W3_main_arg7 m ρ c),
   ((W3_arr m ρ c 1).trans (((dat1 (V2 m ρ) c).arrAt_in 1 rfl _).trans (A_eq1 (V2 m ρ) c 1))).symm.trans (W3_main_arg8 m ρ c),
   ((W3_arr m ρ c 2).trans (((dat1 (V2 m ρ) c).arrAt_in 2 rfl _).trans (A_eq1 (V2 m ρ) c 2))).symm.trans (W3_main_arg9 m ρ c)⟩

/-- The down-projection kernel finds the gated activation of the launch contents where the gate kernel left it. -/
theorem V2_g (c : Dev nD) : V2 m ρ c main_v1
    = Cert.Ffn.gateArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  obtain ⟨e1, e2, e3, e4, e5, e6⟩ := V1_args m ρ c
  refine ((W2_arr m ρ c 7).trans (final0 (V1 m ρ) c)).trans ?_
  rw [V1_x m ρ c, e1, e2, e3, e4, e5, e6]

/-- The result buffer after the run: the specification's block of the ten launch arrays. -/
theorem result_eq (c : Dev nD) : W3 m ρ c (Proc.devRef .tc main_v2)
    = Cert.Ffn.outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  obtain ⟨e7, e8, e9⟩ := V2_args m ρ c
  rw [Cert.Ffn.outArr_eq]
  refine ((W3_arr m ρ c 4).trans (final1 (V2 m ρ) c)).trans ?_
  rw [V2_g m ρ c, e7, e8, e9]

/-- The kernel program's run, read: every weakly fair execution terminates, nothing faulting, with the result buffer at
    the specification's block of the launch arrays and the argument arrays unchanged. -/
theorem run : θ_run defs (onTc (τ := τ) (main (F := Ideal))) ⟨m, fun _ => 0, ρ⟩ (fun r => ∀ c : Dev nD,
      r.2.mem ((c.tc : Thread nD τ).loc main_v2)
        = Cert.Ffn.outArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (m ((c : Thread nD τ).loc main_arg6))
            (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (result_eq m ρ c), (h c).2⟩)
    (Cert.KernelIdeal.GenRun.run_named (F := Ideal) m ρ)

end Cert.Ffn.KVal

end
-- ==== Proof.RefValue.lean ====
/-
  The reference program's result is the specification's feed-forward block.

  The reference dequantizes each weight matrix by reshaping its integer words [R, C] to [R, C / 128, 128], converting
  them to reals, subtracting the zero point and multiplying by the scale of the group (each broadcast along the last
  axis), and reshaping back to [R, C]. Read at (r, k), with flat position r · C + k, the two reshapes cancel and the
  group read is k / 128, so the entry is (q[r, k] − zp[r, k / 128]) · s[r, k / 128]: the specification's wUp (C = 4096)
  and wDown (C = 11008). Each of the three contractions is against the transposed dequantized matrix, that is a sum
  over k of x[t, k] · W[i, k]. Between them the reference computes u · (1 / (1 + exp(−u))) · v from the two
  projections u and v, and 1 / (1 + exp(−u)) is the logistic function by definition.
-/
import proofs.«118565_j43396349559335_1_alg».proof.Proof.Gen.ReferenceIdeal.Read
import proofs.«118565_j43396349559335_1_alg».proof.Proof.Spec
import Idealize.ShloMosaic.Lib.ValueIdx
import Idealize.ShloMosaic.PureOps.Ideal

noncomputable section

open scoped BigOperators

namespace Cert.Ffn.Ref

open Cert.ReferenceIdeal Cert.ReferenceIdeal.Gen Cert.ReferenceIdeal.Read Idealize.ShloMosaic Idealize.ShloMosaic.ValueIdx

/-- The first dequantized weight matrix, read at row r and column k: the reshape to groups of 128 columns, the
    broadcast of the group's zero point and scale, and the reshape back leave (q − zp) · s at k's group. -/
theorem v9_ix2 (x1 : (⟨S11008x4096, .i32⟩ : BufTy).Contents (Elt Ideal)) (x2 : (⟨S11008x32, .f32⟩ : BufTy).Contents (Elt Ideal)) (x3 : (⟨S11008x32, .i32⟩ : BufTy).Contents (Elt Ideal)) (r : Fin 11008) (k : Fin 4096) :
    val_main_v9 (F := Ideal) x1 x2 x3 (ix2 r k) = Cert.Ffn.wUp x1 x2 x3 r k := by
  rw [val_main_v9_apply, val_main_v8_apply, val_main_v5_apply, val_main_v1_apply, val_main_v0_apply, val_main_v4_apply, val_main_v3_apply, val_main_v2_apply, val_main_v7_apply, val_main_v6_apply]
  have hr := r.isLt
  have hk := k.isLt
  -- flat position r · 4096 + k, split as (r, k / 128, k % 128) and joined again, is (r, k)
  have e0 : idx_main_v0 (idx_main_v9 (ix2 r k)) = ix2 r k := funext fun a => Fin.ext (by
    match a with
    | ⟨0, _⟩ =>
      show (((r.val * 4096 + k.val) / 4096 * 32 + (r.val * 4096 + k.val) / 128 % 32) * 128 + (r.val * 4096 + k.val) % 128) / 4096 = r.val
      omega
    | ⟨1, _⟩ =>
      show (((r.val * 4096 + k.val) / 4096 * 32 + (r.val * 4096 + k.val) / 128 % 32) * 128 + (r.val * 4096 + k.val) % 128) % 4096 = k.val
      omega)
  -- the zero point and the scale are read at (r, k / 128)
  have e1 : idx_main_v2 (idx_main_v4 (idx_main_v9 (ix2 r k))) = ix2 r (grpH k) := funext fun a => Fin.ext (by
    match a with
    | ⟨0, _⟩ =>
      show (r.val * 4096 + k.val) / 4096 = r.val
      omega
    | ⟨1, _⟩ =>
      show (r.val * 4096 + k.val) / 128 % 32 = k.val / 128
      omega)
  have e2 : idx_main_v6 (idx_main_v7 (idx_main_v9 (ix2 r k))) = ix2 r (grpH k) := funext fun a => Fin.ext (by
    match a with
    | ⟨0, _⟩ =>
      show (r.val * 4096 + k.val) / 4096 = r.val
      omega
    | ⟨1, _⟩ =>
      show (r.val * 4096 + k.val) / 128 % 32 = k.val / 128
      omega)
  rw [e0, e1, e2]
  rfl

/-- The second dequantized weight matrix is the first one's expression at the other three arrays. -/
theorem v19_eq_v9 (x4 : (⟨S11008x4096, .i32⟩ : BufTy).Contents (Elt Ideal)) (x5 : (⟨S11008x32, .f32⟩ : BufTy).Contents (Elt Ideal)) (x6 : (⟨S11008x32, .i32⟩ : BufTy).Contents (Elt Ideal)) :
    val_main_v19 (F := Ideal) x4 x5 x6 = val_main_v9 (F := Ideal) x4 x5 x6 := rfl

/-- The third dequantized weight matrix (4096 rows, 86 groups of 128 columns), read at row h and column i. -/
theorem v29_ix2 (x7 : (⟨S4096x11008, .i32⟩ : BufTy).Contents (Elt Ideal)) (x8 : (⟨S4096x86, .f32⟩ : BufTy).Contents (Elt Ideal)) (x9 : (⟨S4096x86, .i32⟩ : BufTy).Contents (Elt Ideal)) (h : Fin 4096) (i : Fin 11008) :
    val_main_v29 (F := Ideal) x7 x8 x9 (ix2 h i) = Cert.Ffn.wDown x7 x8 x9 h i := by
  rw [val_main_v29_apply, val_main_v28_apply, val_main_v25_apply, val_main_v21_apply, val_main_v20_apply, val_main_v24_apply, val_main_v23_apply, val_main_v22_apply, val_main_v27_apply, val_main_v26_apply]
  have hh := h.isLt
  have hi := i.isLt
  have e0 : idx_main_v20 (idx_main_v29 (ix2 h i)) = ix2 h i := funext fun a => Fin.ext (by
    match a with
    | ⟨0, _⟩ =>
      show (((h.val * 11008 + i.val) / 11008 * 86 + (h.val * 11008 + i.val) / 128 % 86) * 128 + (h.val * 11008 + i.val) % 128) / 11008 = h.val
      omega
    | ⟨1, _⟩ =>
      show (((h.val * 11008 + i.val) / 11008 * 86 + (h.val * 11008 + i.val) / 128 % 86) * 128 + (h.val * 11008 + i.val) % 128) % 11008 = i.val
      omega)
  have e1 : idx_main_v22 (idx_main_v24 (idx_main_v29 (ix2 h i))) = ix2 h (grpI i) := funext fun a => Fin.ext (by
    match a with
    | ⟨0, _⟩ =>
      show (h.val * 11008 + i.val) / 11008 = h.val
      omega
    | ⟨1, _⟩ =>
      show (h.val * 11008 + i.val) / 128 % 86 = i.val / 128
      omega)
  have e2 : idx_main_v26 (idx_main_v27 (idx_main_v29 (ix2 h i))) = ix2 h (grpI i) := funext fun a => Fin.ext (by
    match a with
    | ⟨0, _⟩ =>
      show (h.val * 11008 + i.val) / 11008 = h.val
      omega
    | ⟨1, _⟩ =>
      show (h.val * 11008 + i.val) / 128 % 86 = i.val / 128
      omega)
  rw [e0, e1, e2]
  rfl

/-- The first projection at (t, i): the contraction of row t of x with row i of the first dequantized matrix
    (the reference contracts with the transposed matrix's column i). -/
theorem v31_ix2 (x0 : (⟨S64x4096, .f32⟩ : BufTy).Contents (Elt Ideal)) (x1 : (⟨S11008x4096, .i32⟩ : BufTy).Contents (Elt Ideal)) (x2 : (⟨S11008x32, .f32⟩ : BufTy).Contents (Elt Ideal)) (x3 : (⟨S11008x32, .i32⟩ : BufTy).Contents (Elt Ideal)) (t : Fin 64) (i : Fin 11008) :
    val_main_v31 (F := Ideal) x0 x1 x2 x3 (ix2 t i) = Cert.Ffn.proj x0 x1 x2 x3 t i := by
  rw [val_main_v31_apply]
  unfold Cert.Ffn.proj
  refine Finset.sum_congr rfl fun k _ => ?_
  have el : lidx_main_v31 (ix2 t i) k = ix2 t k := funext fun a => by
    match a with
    | ⟨0, _⟩ => rfl
    | ⟨1, _⟩ => rfl
  have er : idx_main_v30 (ridx_main_v31 (ix2 t i) k) = ix2 i k := funext fun a => by
    match a with
    | ⟨0, _⟩ => rfl
    | ⟨1, _⟩ => rfl
  rw [val_main_v30_apply, el, er, v9_ix2]

/-- The second projection is the first one's expression at the other three weight arrays. -/
theorem v33_eq_v31 (x0 : (⟨S64x4096, .f32⟩ : BufTy).Contents (Elt Ideal)) (x4 : (⟨S11008x4096, .i32⟩ : BufTy).Contents (Elt Ideal)) (x5 : (⟨S11008x32, .f32⟩ : BufTy).Contents (Elt Ideal)) (x6 : (⟨S11008x32, .i32⟩ : BufTy).Contents (Elt Ideal)) :
    val_main_v33 (F := Ideal) x0 x4 x5 x6 = val_main_v31 (F := Ideal) x0 x4 x5 x6 := rfl

/-- The bit pattern 0x3F800000 is the number one. -/
theorem one_bits : FloatOps.ofBits (F := Ideal) .f32 0x3F800000#32 = (1 : EReal) := by
  simp [Ideal.ofBits, Ideal.ieee, -EReal.coe_mul]; norm_num

/-- The gated activation at (t, i): the reference's negate, exponential, add and divide spell the logistic function. -/
theorem v35_ix2 (x0 : (⟨S64x4096, .f32⟩ : BufTy).Contents (Elt Ideal)) (x1 : (⟨S11008x4096, .i32⟩ : BufTy).Contents (Elt Ideal)) (x2 : (⟨S11008x32, .f32⟩ : BufTy).Contents (Elt Ideal)) (x3 : (⟨S11008x32, .i32⟩ : BufTy).Contents (Elt Ideal)) (x4 : (⟨S11008x4096, .i32⟩ : BufTy).Contents (Elt Ideal)) (x5 : (⟨S11008x32, .f32⟩ : BufTy).Contents (Elt Ideal)) (x6 : (⟨S11008x32, .i32⟩ : BufTy).Contents (Elt Ideal)) (t : Fin 64) (i : Fin 11008) :
    val_main_v35 (F := Ideal) x0 x1 x2 x3 x4 x5 x6 (ix2 t i) = Cert.Ffn.gate x0 x1 x2 x3 x4 x5 x6 t i := by
  rw [val_main_v35_apply, val_main_v34_apply, val_main_call0_v5_apply, val_main_call0_v4_apply, val_main_call0_cst_0_apply,
    val_main_call0_v3_apply, val_main_call0_v2_apply, val_main_call0_cst_apply, val_main_call0_v1_apply, val_main_call0_v0_apply,
    v33_eq_v31, v31_ix2, v31_ix2, one_bits]
  rfl

/-- The reference's gated activation, as a whole array, is the specification's. -/
theorem v35_eq (x0 : (⟨S64x4096, .f32⟩ : BufTy).Contents (Elt Ideal)) (x1 : (⟨S11008x4096, .i32⟩ : BufTy).Contents (Elt Ideal)) (x2 : (⟨S11008x32, .f32⟩ : BufTy).Contents (Elt Ideal)) (x3 : (⟨S11008x32, .i32⟩ : BufTy).Contents (Elt Ideal)) (x4 : (⟨S11008x4096, .i32⟩ : BufTy).Contents (Elt Ideal)) (x5 : (⟨S11008x32, .f32⟩ : BufTy).Contents (Elt Ideal)) (x6 : (⟨S11008x32, .i32⟩ : BufTy).Contents (Elt Ideal)) :
    val_main_v35 (F := Ideal) x0 x1 x2 x3 x4 x5 x6 = Cert.Ffn.gateArr x0 x1 x2 x3 x4 x5 x6 := by
  funext j
  obtain ⟨t, i, rfl⟩ : ∃ (t : Fin 64) (i : Fin 11008), j = ix2 t i := ⟨j 0, j 1, eq_ix2 j⟩
  rw [v35_ix2, Cert.Ffn.gateArr_ix2]

/-- The reference's result is the specification's: at (t, h), the contraction of row t of the gated activation with
    row h of the third dequantized matrix (the reference contracts with the transposed matrix's column h). -/
theorem ref_eq (x0 : (⟨S64x4096, .f32⟩ : BufTy).Contents (Elt Ideal)) (x1 : (⟨S11008x4096, .i32⟩ : BufTy).Contents (Elt Ideal)) (x2 : (⟨S11008x32, .f32⟩ : BufTy).Contents (Elt Ideal)) (x3 : (⟨S11008x32, .i32⟩ : BufTy).Contents (Elt Ideal)) (x4 : (⟨S11008x4096, .i32⟩ : BufTy).Contents (Elt Ideal)) (x5 : (⟨S11008x32, .f32⟩ : BufTy).Contents (Elt Ideal)) (x6 : (⟨S11008x32, .i32⟩ : BufTy).Contents (Elt Ideal)) (x7 : (⟨S4096x11008, .i32⟩ : BufTy).Contents (Elt Ideal)) (x8 : (⟨S4096x86, .f32⟩ : BufTy).Contents (Elt Ideal)) (x9 : (⟨S4096x86, .i32⟩ : BufTy).Contents (Elt Ideal)) :
    Cert.ReferenceIdeal.Read.val_main_v37 (F := Ideal) x0 x1 x2 x3 x4 x5 x6 x7 x8 x9 = Cert.Ffn.outArr x0 x1 x2 x3 x4 x5 x6 x7 x8 x9 := by
  funext j
  obtain ⟨t, h, rfl⟩ : ∃ (t : Fin 64) (h : Fin 4096), j = ix2 t h := ⟨j 0, j 1, eq_ix2 j⟩
  rw [val_main_v37_apply, Cert.Ffn.outArr_ix2, v35_eq]
  unfold Cert.Ffn.down
  refine Finset.sum_congr rfl fun i _ => ?_
  have el : lidx_main_v37 (ix2 t h) i = ix2 t i := funext fun a => by
    match a with
    | ⟨0, _⟩ => rfl
    | ⟨1, _⟩ => rfl
  have er : idx_main_v36 (ridx_main_v37 (ix2 t h) i) = ix2 h i := funext fun a => by
    match a with
    | ⟨0, _⟩ => rfl
    | ⟨1, _⟩ => rfl
  rw [val_main_v36_apply, el, er, v29_ix2]

end Cert.Ffn.Ref

end
-- ==== Proof.lean ====
/-
  A feed-forward block with group-quantized weights: the kernel program against its reference, over the extended reals.

  Both programs compute out[t, h] = Σ_i g[t, i] · W2[h, i] with g[t, i] = (x1 · logistic x1) · x3 at (t, i),
  x1 = x · W1ᵀ, x3 = x · W3ᵀ, and every weight W[r, k] = (q[r, k] − zp[r, k / 128]) · s[r, k / 128] (Proof/Spec.lean).
  The kernel program computes g in 43 column blocks and out in 32 column blocks, each from a block of rows of the
  weight matrices dequantized in place (Proof/Body0.lean, Proof/Body1.lean: one block's value; Proof/KValue.lean: the
  blocks tile the arrays, and the two kernels chained). The reference dequantizes the whole matrices, contracts with
  their transposes and spells the logistic function as 1 / (1 + exp(−u)) (Proof/RefValue.lean). No law beyond the
  re-indexing of each finite sum is needed, so finiteness of the inputs is not used: the two results are one function
  of the ten arrays on every input. The narrowing format changes of the kernel are the identity over the extended
  reals, and the ideal pass rewrote nothing, so the preservation claim is empty.
-/
import proofs.«118565_j43396349559335_1_alg».proof.Defs
import proofs.«118565_j43396349559335_1_alg».proof.Proof.Gen.Kernel
import proofs.«118565_j43396349559335_1_alg».proof.Proof.Gen.Kernel.Skeleton
import proofs.«118565_j43396349559335_1_alg».proof.Proof.Gen.Kernel.Launch
import proofs.«118565_j43396349559335_1_alg».proof.Proof.Gen.Kernel.Points
import proofs.«118565_j43396349559335_1_alg».proof.Proof.Gen.Kernel.Frame
import proofs.«118565_j43396349559335_1_alg».proof.Proof.Gen.KernelIdeal
import proofs.«118565_j43396349559335_1_alg».proof.Proof.Gen.KernelIdeal.Skeleton
import proofs.«118565_j43396349559335_1_alg».proof.Proof.Gen.KernelIdeal.Launch
import proofs.«118565_j43396349559335_1_alg».proof.Proof.Gen.KernelIdeal.Points
import proofs.«118565_j43396349559335_1_alg».proof.Proof.Gen.KernelIdeal.Frame
import proofs.«118565_j43396349559335_1_alg».proof.Proof.Gen.ReferenceIdeal
import proofs.«118565_j43396349559335_1_alg».proof.Proof.Gen.ReferenceIdeal.Run
import proofs.«118565_j43396349559335_1_alg».proof.Proof.Gen.ReferenceIdeal.Read
import proofs.«118565_j43396349559335_1_alg».proof.Proof.Gen.Pre_finite_inputs
import proofs.«118565_j43396349559335_1_alg».proof.Proof.KValue
import proofs.«118565_j43396349559335_1_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at the specification's block of the ten argument arrays: the kernel
    program by its chained regions, the reference stage by stage; the arrays agree by hypothesis. -/
theorem algebraic : Cert.algebraic_KernelIdeal_ReferenceIdeal := by
  intro m ρ m' ρ' _ hagree
  refine ⟨_, Cert.Ffn.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v37_eq, Cert.Ffn.Ref.ref_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
